-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S200000 : Shape := ⟨1, ![200000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x1 .f32) (main_arg1 : IVec S2x6400000 32) (main_arg2 : IVec S200000 32) (main_arg3 : FVec F S1x32 .f32) (main_arg4 : FVec F S32 .f32) (main_arg5 : FVec F S32x1 .f32) (main_arg6 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg5
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg6 main_v13 main_v16
-- ==== Kernel.lean ====
abbrev S200000x1 : Shape := ⟨2, ![200000, 1]⟩
abbrev S2x6400000 : Shape := ⟨2, ![2, 6400000]⟩
abbrev S200000 : Shape := ⟨1, ![200000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1000x1 : Shape := ⟨2, ![1000, 1]⟩
abbrev S1000x32 : Shape := ⟨2, ![1000, 32]⟩
abbrev S1x1 : Shape := ⟨2, ![1, 1]⟩
abbrev S1x1024 : Shape := ⟨2, ![1, 1024]⟩
abbrev S2000x1 : Shape := ⟨2, ![2000, 1]⟩
abbrev S2000x1024 : Shape := ⟨2, ![2000, 1024]⟩
abbrev S1024 : Shape := ⟨1, ![1024]⟩
abbrev S1x1000 : Shape := ⟨2, ![1, 1000]⟩
abbrev S1000 : Shape := ⟨1, ![1000]⟩

abbrev nBuf : Space → Nat
  | .hbm => 66
  | .vmem => 28
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S200000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S_, .f32⟩
  | .hbm, ⟨12, _⟩ => ⟨S6400000, .f32⟩
  | .hbm, ⟨13, _⟩ => ⟨S_, .f32⟩
  | .hbm, ⟨14, _⟩ => ⟨S200000, .f32⟩
  | .hbm, ⟨15, _⟩ => ⟨S6400000x1, .i32⟩
  | .hbm, ⟨16, _⟩ => ⟨S200000, .f32⟩
  | .hbm, ⟨17, _⟩ => ⟨S200000x1, .f32⟩
  | .hbm, ⟨18, _⟩ => ⟨S_, .f32⟩
  | .hbm, ⟨19, _⟩ => ⟨S200000, .f32⟩
  | .hbm, ⟨20, _⟩ => ⟨S6400000x1, .i32⟩
  | .hbm, ⟨21, _⟩ => ⟨S200000, .f32⟩
  | .hbm, ⟨22, _⟩ => ⟨S200000x1, .f32⟩
  | .hbm, ⟨23, _⟩ => ⟨S200000x1, .f32⟩
  | .hbm, ⟨24, _⟩ => ⟨S200000x1, .f32⟩
  | .hbm, ⟨25, _⟩ => ⟨S200000x1, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x1, .f32⟩
  | .hbm, ⟨35, _⟩ => ⟨S_, .f32⟩
  | .hbm, ⟨36, _⟩ => ⟨S200000x1, .f32⟩
  | .hbm, ⟨37, _⟩ => ⟨S6400000x1, .i32⟩
  | .hbm, ⟨38, _⟩ => ⟨S200000x1, .f32⟩
  | .hbm, ⟨39, _⟩ => ⟨S1x32, .f32⟩
  | .hbm, ⟨40, _⟩ => ⟨S200000x1, .f32⟩
  | .hbm, ⟨41, _⟩ => ⟨S_, .i32⟩
  | .hbm, ⟨42, _⟩ => ⟨S6400000, .i32⟩
  | .hbm, ⟨43, _⟩ => ⟨S6400000, .i1⟩
  | .hbm, ⟨44, _⟩ => ⟨S_, .i32⟩
  | .hbm, ⟨45, _⟩ => ⟨S6400000, .i32⟩
  | .hbm, ⟨46, _⟩ => ⟨S6400000, .i32⟩
  | .hbm, ⟨47, _⟩ => ⟨S6400000, .i32⟩
  | .hbm, ⟨48, _⟩ => ⟨S6400000x1, .i32⟩
  | .hbm, ⟨49, _⟩ => ⟨S6400000x1, .f32⟩
  | .hbm, ⟨50, _⟩ => ⟨S_, .f32⟩
  | .hbm, ⟨51, _⟩ => ⟨S200000x1, .f32⟩
  | .hbm, ⟨52, _⟩ => ⟨S6400000x1, .i32⟩
  | .hbm, ⟨53, _⟩ => ⟨S200000x1, .f32⟩
  | .hbm, ⟨54, _⟩ => ⟨S1x1, .f32⟩
  | .hbm, ⟨55, _⟩ => ⟨S200000x1, .i32⟩
  | .hbm, ⟨56, _⟩ => ⟨S1x1024, .f32⟩
  | .hbm, ⟨57, _⟩ => ⟨S1x1024, .f32⟩
  | .hbm, ⟨58, _⟩ => ⟨S1x1000, .f32⟩
  | .hbm, ⟨59, _⟩ => ⟨S1000, .f32⟩
  | .hbm, ⟨60, _⟩ => ⟨S1x1000, .f32⟩
  | .hbm, ⟨61, _⟩ => ⟨S1000, .f32⟩
  | .hbm, ⟨62, _⟩ => ⟨S_, .f32⟩
  | .hbm, ⟨63, _⟩ => ⟨S1000, .f32⟩
  | .hbm, ⟨64, _⟩ => ⟨S1000, .f32⟩
  | .hbm, ⟨65, _⟩ => ⟨S1000, .f32⟩
  | .local _ .vmem, ⟨0, _⟩ => ⟨S1000x1, .f32⟩
  | .local _ .vmem, ⟨1, _⟩ => ⟨S1000x1, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x1, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1000x1, .f32⟩
  | .local _ .vmem, ⟨11, _⟩ => ⟨S1000x1, .f32⟩
  | .local _ .vmem, ⟨12, _⟩ => ⟨S1000x1, .f32⟩
  | .local _ .vmem, ⟨13, _⟩ => ⟨S1000x1, .f32⟩
  | .local _ .vmem, ⟨14, _⟩ => ⟨S1x32, .f32⟩
  | .local _ .vmem, ⟨15, _⟩ => ⟨S1x32, .f32⟩
  | .local _ .vmem, ⟨16, _⟩ => ⟨S32x1, .f32⟩
  | .local _ .vmem, ⟨17, _⟩ => ⟨S1000x1, .f32⟩
  | .local _ .vmem, ⟨18, _⟩ => ⟨S1000x1, .f32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S1x1, .f32⟩
  | .local _ .vmem, ⟨24, _⟩ => ⟨S2000x1, .i32⟩
  | .local _ .vmem, ⟨25, _⟩ => ⟨S2000x1, .i32⟩
  | .local _ .vmem, ⟨26, _⟩ => ⟨S1x1024, .f32⟩
  | .local _ .vmem, ⟨27, _⟩ => ⟨S1x1024, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  bcast_S_S200000x1 : S_.BroadcastsInDim S200000x1 (![] : Fin 0 → Fin S200000x1.rank)
  shapeCasts_S32_S1x32 : S32.ShapeCasts S1x32
  inb_S1x32_S1x32_0_0 : ∀ a, (![0, 0] : Fin 2 → Nat) a + S1x32.size a ≤ S1x32.size a
  h_S1x32 : 0 < S1x32.numel
  broadcasts_S1000x1_S1000x32 : S1000x1.Broadcasts S1000x32
  broadcasts_S1x32_S1000x32 : S1x32.Broadcasts S1000x32
  shapeCasts_S1x32_S1x32 : S1x32.ShapeCasts S1x32
  bitsLt_bf16_f32 : FTy.bits .bf16 < FTy.bits .f32
  inb_S32x1_S32x1_0_0 : ∀ a, (![0, 0] : Fin 2 → Nat) a + S32x1.size a ≤ S32x1.size a
  h_S32x1 : 0 < S32x1.numel
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  shapeCasts_S1x1024_S1x1024 : S1x1024.ShapeCasts S1x1024
  reduces_S2000x1024_S1024 : S2000x1024.Reduces [0] S1024
  shapeCasts_S1024_S1x1024 : S1024.ShapeCasts S1x1024
  slices_S1x1024_S1x1000_0_0 : S1x1024.Slices ![0, 0] S1x1000
  shapeCasts_S1x1000_S1000 : S1x1000.ShapeCasts S1000
  bcast_S_S1000 : S_.BroadcastsInDim S1000 (![] : Fin 0 → Fin S1000.rank)
  scatter_S200000_S6400000x1_S6400000_n_0_0_1_wf : ScatterDims.WF S200000 S6400000x1 S6400000 [] [0] [0] 1
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S1000x32_S32x1_S1000x1_1_0_0_1_n_n_wf : DotDims.WF S1000x32 S32x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S200000x1.size a
  hwx0_0 : ∀ i : grid0.Coords, EltTy.bits .f32 = 32 ∨ (Rect.block (s := S200000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S200000x1.size a
  hwx0_1 : ∀ i : grid0.Coords, EltTy.bits .f32 = 32 ∨ (Rect.block (s := S200000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S200000x1.size a
  hwx0_2 : ∀ i : grid0.Coords, EltTy.bits .f32 = 32 ∨ (Rect.block (s := S200000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S200000x1.size a
  hwx0_3 : ∀ i : grid0.Coords, EltTy.bits .f32 = 32 ∨ (Rect.block (s := S200000x1) S1000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1.size a ≤ S200000x1.size a
  hwx1_0 : ∀ i : grid1.Coords, EltTy.bits .f32 = 32 ∨ (Rect.block (s := S200000x1) S1000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S200000x1.size a
  hwx1_1 : ∀ i : grid1.Coords, EltTy.bits .f32 = 32 ∨ (Rect.block (s := S200000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S200000x1.size a
  hwx1_2 : ∀ i : grid1.Coords, EltTy.bits .f32 = 32 ∨ (Rect.block (s := S200000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x1.size a ≤ S200000x1.size a
  hwx1_6 : ∀ i : grid1.Coords, EltTy.bits .f32 = 32 ∨ (Rect.block (s := S200000x1) S1000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S200000x1.size a
  hwx2_0 : ∀ i : grid2.Coords, EltTy.bits .f32 = 32 ∨ (Rect.block (s := S200000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S200000x1.size a
  hwx2_1 : ∀ i : grid2.Coords, EltTy.bits .f32 = 32 ∨ (Rect.block (s := S200000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S200000x1.size a
  hwx2_3 : ∀ i : grid2.Coords, EltTy.bits .i32 = 32 ∨ (Rect.block (s := S200000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

abbrev win0_0 : Pipeline.Window sig grid0 :=
  Pipeline.Window.ofSpec (Memref.whole main_v8) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S1000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_1) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39_0) S1x1024.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_1) S1x1024.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S200000 : Shape := ⟨1, ![200000]⟩
abbrev S1x32 : Shape := ⟨2, ![1, 32]⟩
abbrev S32 : Shape := ⟨1, ![32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x32 : Shape := ⟨2, ![200000, 32]⟩
abbrev S6400000x32 : Shape := ⟨2, ![6400000, 32]⟩
abbrev S1x1 : Shape := ⟨2, ![1, 1]⟩
abbrev S1000x1 : Shape := ⟨2, ![1000, 1]⟩
abbrev S1000 : Shape := ⟨1, ![1000]⟩

abbrev nBuf : Space → Nat
  | .hbm => 105
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S200000, .i32⟩
  | .hbm, ⟨3, _⟩ => ⟨S1x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S_, .f32⟩
  | .hbm, ⟨12, _⟩ => ⟨S6400000, .f32⟩
  | .hbm, ⟨13, _⟩ => ⟨S_, .f32⟩
  | .hbm, ⟨14, _⟩ => ⟨S200000, .f32⟩
  | .hbm, ⟨15, _⟩ => ⟨S6400000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S6400000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .f32⟩
  | .hbm, ⟨33, _⟩ => ⟨S200000, .f32⟩
  | .hbm, ⟨34, _⟩ => ⟨S200000, .i1⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000, .f32⟩
  | .hbm, ⟨39, _⟩ => ⟨S_, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000x1, .f32⟩
  | .hbm, ⟨45, _⟩ => ⟨S200000x32, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x32, .f32⟩
  | .hbm, ⟨55, _⟩ => ⟨S_, .f32⟩
  | .hbm, ⟨56, _⟩ => ⟨S200000x32, .f32⟩
  | .hbm, ⟨57, _⟩ => ⟨S6400000x1, .i32⟩
  | .hbm, ⟨58, _⟩ => ⟨S200000x32, .f32⟩
  | .hbm, ⟨59, _⟩ => ⟨S200000x1, .f32⟩
  | .hbm, ⟨60, _⟩ => ⟨S200000x32, .f32⟩
  | .hbm, ⟨61, _⟩ => ⟨S200000x32, .f32⟩
  | .hbm, ⟨62, _⟩ => ⟨S1x32, .f32⟩
  | .hbm, ⟨63, _⟩ => ⟨S200000x32, .f32⟩
  | .hbm, ⟨64, _⟩ => ⟨S200000x32, .f32⟩
  | .hbm, ⟨65, _⟩ => ⟨S_, .f32⟩
  | .hbm, ⟨66, _⟩ => ⟨S200000x32, .f32⟩
  | .hbm, ⟨67, _⟩ => ⟨S200000x32, .f32⟩
  | .hbm, ⟨68, _⟩ => ⟨S200000x1, .f32⟩
  | .hbm, ⟨69, _⟩ => ⟨S200000x32, .f32⟩
  | .hbm, ⟨70, _⟩ => ⟨S200000x32, .f32⟩
  | .hbm, ⟨71, _⟩ => ⟨S200000x1, .f32⟩
  | .hbm, ⟨72, _⟩ => ⟨S_, .i32⟩
  | .hbm, ⟨73, _⟩ => ⟨S6400000, .i32⟩
  | .hbm, ⟨74, _⟩ => ⟨S6400000, .i1⟩
  | .hbm, ⟨75, _⟩ => ⟨S_, .i32⟩
  | .hbm, ⟨76, _⟩ => ⟨S6400000, .i32⟩
  | .hbm, ⟨77, _⟩ => ⟨S6400000, .i32⟩
  | .hbm, ⟨78, _⟩ => ⟨S6400000, .i32⟩
  | .hbm, ⟨79, _⟩ => ⟨S6400000x1, .i32⟩
  | .hbm, ⟨80, _⟩ => ⟨S6400000x1, .f32⟩
  | .hbm, ⟨81, _⟩ => ⟨S_, .f32⟩
  | .hbm, ⟨82, _⟩ => ⟨S200000x1, .f32⟩
  | .hbm, ⟨83, _⟩ => ⟨S6400000x1, .i32⟩
  | .hbm, ⟨84, _⟩ => ⟨S200000x1, .f32⟩
  | .hbm, ⟨85, _⟩ => ⟨S200000x1, .f32⟩
  | .hbm, ⟨86, _⟩ => ⟨S200000x1, .f32⟩
  | .hbm, ⟨87, _⟩ => ⟨S1x1, .f32⟩
  | .hbm, ⟨88, _⟩ => ⟨S200000x1, .f32⟩
  | .hbm, ⟨89, _⟩ => ⟨S200000x1, .f32⟩
  | .hbm, ⟨90, _⟩ => ⟨S_, .f32⟩
  | .hbm, ⟨91, _⟩ => ⟨S1000x1, .f32⟩
  | .hbm, ⟨92, _⟩ => ⟨S200000x1, .i32⟩
  | .hbm, ⟨93, _⟩ => ⟨S1000x1, .f32⟩
  | .hbm, ⟨94, _⟩ => ⟨S_, .f32⟩
  | .hbm, ⟨95, _⟩ => ⟨S200000x1, .f32⟩
  | .hbm, ⟨96, _⟩ => ⟨S_, .f32⟩
  | .hbm, ⟨97, _⟩ => ⟨S1000x1, .f32⟩
  | .hbm, ⟨98, _⟩ => ⟨S200000x1, .i32⟩
  | .hbm, ⟨99, _⟩ => ⟨S1000x1, .f32⟩
  | .hbm, ⟨100, _⟩ => ⟨S_, .f32⟩
  | .hbm, ⟨101, _⟩ => ⟨S1000x1, .f32⟩
  | .hbm, ⟨102, _⟩ => ⟨S1000x1, .f32⟩
  | .hbm, ⟨103, _⟩ => ⟨S1000x1, .f32⟩
  | .hbm, ⟨104, _⟩ => ⟨S1000, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_cst : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S200000_S200000x1_0 : S200000.BroadcastsInDim S200000x1 (![0] : Fin 1 → Fin S200000x1.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S1000x1 : S_.BroadcastsInDim S1000x1 (![] : Fin 0 → Fin S1000x1.rank)
  shapeCasts_S1000x1_S1000 : S1000x1.ShapeCasts S1000
  scatter_S200000_S6400000x1_S6400000_n_0_0_1_wf : ScatterDims.WF S200000 S6400000x1 S6400000 [] [0] [0] 1
  dot_S200000x1_S1x32_S200000x32_1_0_0_1_n_n_wf : DotDims.WF S200000x1 S1x32 S200000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S200000x32_S32x1_S200000x1_1_0_0_1_n_n_wf : DotDims.WF S200000x32 S32x1 S200000x1 [1] [0] [0] [1] [] []
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  scatter_S1000x1_S200000x1_S200000x1_1_0_0_1_wf : ScatterDims.WF S1000x1 S200000x1 S200000x1 [1] [0] [0] 1

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S200000x1_S1x32_S200000x32_1_0_0_1_n_n : DotDims S200000x1 S1x32 S200000x32 where
  lhsContracting := [1]
  rhsContracting := [0]
  lhsNonContracting := [0]
  rhsNonContracting := [1]
  lhsBatch := []
  rhsBatch := []
  wf := dot_S200000x1_S1x32_S200000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def scatter_S1000x1_S200000x1_S200000x1_1_0_0_1 : ScatterDims S1000x1 S200000x1 S200000x1 where
  updateWindowDims := [1]
  insertedWindowDims := [0]
  scatterDimsToOperandDims := [0]
  indexVectorDim := 1
  wf := scatter_S1000x1_S200000x1_S200000x1_1_0_0_1_wf

class Facts : Prop extends Facts₀ where

variable [Facts]
-- ==== Proof.Spec.lean ====
/-
  The mathematics both programs compute, over plain index types.

  A graph of 200000 nodes and 6400000 edges; edge e runs from the node its source word names to the node its
  destination word names. A node's out-degree counts the edges whose source word reads it, its in-degree those whose
  destination word reads it; the normalisation of a degree d is d^(-1/2) where d is positive and 0 where it is not.
  One graph-convolution layer scales a node's feature by its out-normalisation, applies a weight matrix, sums the
  result over the incoming edges, scales by the in-normalisation and adds a bias. The first layer maps the scalar
  node feature to 32 hidden features (followed by a rectifier), the second maps them back to one; the readout
  averages the second layer's output over the nodes of each of 1000 graphs.

  The two programs differ in the first layer only: one sums the scaled scalar feature over the incoming edges and
  multiplies the sum by the weight row afterwards, the other multiplies first and sums the 32 products. The two
  agree because a finite real factor moves across a sum of finite reals (hid_eq).
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Fin
import Mathlib.Algebra.BigOperators.Ring.Finset
import Mathlib.Logic.Equiv.Fin.Basic

noncomputable section

open scoped BigOperators

namespace Cert.Spec

open Idealize.ShloMosaic Idealize.ShloMosaic.ValueIdx

/-- Nodes, edges, graphs. -/
abbrev NN : ℕ := 200000
abbrev NE : ℕ := 6400000
abbrev NG : ℕ := 1000

/-- The degree normalisation: d^(-1/2) for a positive degree (the degree first raised to at least 1), else 0. -/
def nrm (d : EReal) : EReal := if 0 < d then Ideal.rsqrt (max d 1) else 0

/-- How many edges carry an index word that reads n. -/
def deg (iw : Fin NE → BitVec 32) (n : Fin NN) : EReal :=
  ∑ e : Fin NE, if (iw e).toInt = (n.val : ℤ) then (1 : EReal) else 0

/-- The node row a gather reads for edge e: the (already wrapped) source word read signed, clamped into the table. -/
def row (rw : Fin NE → BitVec 32) (e : Fin NE) : Fin NN :=
  ⟨min (rw e).toInt.toNat (NN - 1), lt_of_le_of_lt (min_le_right _ _) (by decide)⟩

/-- Per-edge values summed at the node their destination word reads. -/
def scat (dw : Fin NE → BitVec 32) (f : Fin NE → EReal) (n : Fin NN) : EReal :=
  ∑ e : Fin NE, if (dw e).toInt = (n.val : ℤ) then f e else 0

section
variable (sw dw rw : Fin NE → BitVec 32) (gw : Fin NN → BitVec 32)
variable (x : Fin NN → EReal) (w1 b1 w2 : Fin 32 → EReal) (b2 : EReal)

/-- Out- and in-normalisation of a node. -/
def nO (n : Fin NN) : EReal := nrm (deg sw n)
def nI (n : Fin NN) : EReal := nrm (deg dw n)

/-- The node feature scaled by the out-normalisation. -/
def msg1 (n : Fin NN) : EReal := x n * nO sw n

/-- Hidden features, the scalar summed over the incoming edges first and the weight row applied afterwards. -/
def hidK (n : Fin NN) (j : Fin 32) : EReal :=
  max ((scat dw (fun e => msg1 sw x (row rw e)) n * nI dw n) * w1 j + b1 j) 0

/-- Hidden features, the weight row applied first and the 32 products summed over the incoming edges. -/
def hidR (n : Fin NN) (j : Fin 32) : EReal :=
  max (scat dw (fun e => msg1 sw x (row rw e) * w1 j) n * nI dw n + b1 j) 0

/-- The second layer's message of a node: its hidden features scaled and contracted with the second weight column. -/
def msg2 (h : Fin NN → Fin 32 → EReal) (n : Fin NN) : EReal := ∑ j : Fin 32, (h n j * nO sw n) * w2 j

/-- The second layer's output at a node. -/
def out2 (h : Fin NN → Fin 32 → EReal) (n : Fin NN) : EReal :=
  scat dw (fun e => msg2 sw w2 h (row rw e)) n * nI dw n + b2

/-- The sum of the second layer's output over the nodes whose graph word reads g, and their number. -/
def gsum (h : Fin NN → Fin 32 → EReal) (g : ℕ) : EReal :=
  ∑ m : Fin NN, if (gw m).toInt = (g : ℤ) then out2 sw dw rw w2 b2 h m else 0
def gcnt (g : ℕ) : EReal := ∑ m : Fin NN, if (gw m).toInt = (g : ℤ) then (1 : EReal) else 0

/-- The readout: a graph's mean (its node count raised to at least 1). -/
def pooled (h : Fin NN → Fin 32 → EReal) (g : Fin NG) : EReal :=
  Ideal.div (gsum sw dw rw gw w2 b2 h g.val) (max (gcnt gw g.val) 1)

end

/-! ## The seven argument arrays read as plain functions -/

/-- A negative index word is wrapped once by the table's length before a gather reads it. -/
def wrapw (b : BitVec 32) : BitVec 32 := Scalar.select (IntOp.cmpi .slt b 0#32) (IntOp.addi b 200000#32) b

section Readers
variable (x0 : (⟨2, ![200000, 1]⟩ : Shape).Idx → EReal) (x1 : (⟨2, ![2, 6400000]⟩ : Shape).Idx → BitVec 32)
  (x2 : (⟨1, ![200000]⟩ : Shape).Idx → BitVec 32) (x3 : (⟨2, ![1, 32]⟩ : Shape).Idx → EReal)
  (x4 : (⟨1, ![32]⟩ : Shape).Idx → EReal) (x5 : (⟨2, ![32, 1]⟩ : Shape).Idx → EReal) (x6 : (⟨1, ![1]⟩ : Shape).Idx → EReal)

/-- Source and destination words of edge e (rows 0 and 1 of the edge table), the wrapped source word, the graph
    word of node m, the node feature, the two weight arrays and the two biases. -/
def swOf (e : Fin NE) : BitVec 32 := x1 (ix2 (0 : Fin 2) e)
def dwOf (e : Fin NE) : BitVec 32 := x1 (ix2 (1 : Fin 2) e)
def rwOf (e : Fin NE) : BitVec 32 := wrapw (x1 (ix2 (0 : Fin 2) e))
def gwOf (m : Fin NN) : BitVec 32 := x2 (ix1 m)
def xOf (n : Fin NN) : EReal := x0 (ix2 n (0 : Fin 1))
def w1Of (j : Fin 32) : EReal := x3 (ix2 (0 : Fin 1) j)
def b1Of (j : Fin 32) : EReal := x4 (ix1 j)
def w2Of (j : Fin 32) : EReal := x5 (ix2 j (0 : Fin 1))
def b2Of : EReal := x6 (ix1 (0 : Fin 1))

/-- The whole result at graph g with the scalar summed first … -/
def resultK (g : Fin NG) : EReal :=
  pooled (swOf x1) (dwOf x1) (rwOf x1) (gwOf x2) (w2Of x5) (b2Of x6)
    (hidK (swOf x1) (dwOf x1) (rwOf x1) (xOf x0) (w1Of x3) (b1Of x4)) g

/-- … and with the weight row applied first. -/
def resultR (g : Fin NG) : EReal :=
  pooled (swOf x1) (dwOf x1) (rwOf x1) (gwOf x2) (w2Of x5) (b2Of x6)
    (hidR (swOf x1) (dwOf x1) (rwOf x1) (xOf x0) (w1Of x3) (b1Of x4)) g

end Readers

/-- A finite sum of reals, each read as an extended real, is the real sum read as an extended real. -/
private theorem coe_sum {ι : Type*} (s : Finset ι) (f : ι → ℝ) :
    (∑ e ∈ s, (f e : EReal)) = ((∑ e ∈ s, f e : ℝ) : EReal) := by
  classical
  induction s using Finset.induction_on with
  | empty => simp
  | insert a s ha ih => rw [Finset.sum_insert ha, Finset.sum_insert ha, ih, EReal.coe_add]

/-- A choice between a real and zero, read as an extended real. -/
private theorem ite_coe (c : Prop) [Decidable c] (a : ℝ) :
    (if c then (a : EReal) else 0) = ((if c then a else 0 : ℝ) : EReal) := by
  split_ifs <;> simp

/-- A finite real factor moves across a sum of finite reals taken over the indices that satisfy a condition. -/
private theorem cond_sum_mul {ι : Type*} (s : Finset ι) (c : ι → Prop) [∀ e, Decidable (c e)] (a : ι → ℝ) (w : ℝ) :
    (∑ e ∈ s, if c e then (a e : EReal) else 0) * (w : EReal)
      = ∑ e ∈ s, if c e then (a e : EReal) * (w : EReal) else 0 := by
  have h2 : ∀ e, (if c e then (a e : EReal) * (w : EReal) else 0) = ((if c e then a e * w else 0 : ℝ) : EReal) := by
    intro e
    rw [← EReal.coe_mul, ite_coe]
  simp only [ite_coe, h2]
  rw [coe_sum, coe_sum, ← EReal.coe_mul, Finset.sum_mul]
  congr 1
  refine Finset.sum_congr rfl fun e _ => ?_
  split_ifs <;> simp

/-- A degree is a natural number. -/
theorem deg_nat (iw : Fin NE → BitVec 32) (n : Fin NN) : ∃ k : ℕ, deg iw n = ((k : ℝ) : EReal) := by
  refine ⟨(Finset.univ.filter fun e : Fin NE => (iw e).toInt = (n.val : ℤ)).card, ?_⟩
  unfold deg
  have h1 : ∀ e : Fin NE, (if (iw e).toInt = (n.val : ℤ) then (1 : EReal) else 0)
      = ((if (iw e).toInt = (n.val : ℤ) then (1 : ℝ) else 0 : ℝ) : EReal) := by
    intro e
    rw [← ite_coe, EReal.coe_one]
  simp only [h1]
  rw [coe_sum, Finset.sum_boole]

/-- The normalisation of a degree is a finite real. -/
theorem nrm_deg_real (iw : Fin NE → BitVec 32) (n : Fin NN) : ∃ r : ℝ, nrm (deg iw n) = (r : EReal) := by
  obtain ⟨k, hk⟩ := deg_nat iw n
  rw [hk]
  unfold nrm
  by_cases h : (0 : EReal) < ((k : ℝ) : EReal)
  · rw [if_pos h]
    have hm : max (((k : ℝ) : EReal)) 1 = ((max (k : ℝ) 1 : ℝ) : EReal) := by
      rw [EReal.coe_strictMono.monotone.map_max, EReal.coe_one]
    rw [hm]
    have h1 : (1 : ℝ) ≤ max (k : ℝ) 1 := le_max_right _ _
    refine ⟨(Real.sqrt (max (k : ℝ) 1))⁻¹, ?_⟩
    show (if max (k : ℝ) 1 < 0 then (⊥ : EReal) else if max (k : ℝ) 1 = 0 then ⊤
      else ((Real.sqrt (max (k : ℝ) 1))⁻¹ : ℝ)) = _
    rw [if_neg (by linarith), if_neg (by linarith)]
  · rw [if_neg h]
    exact ⟨0, by simp⟩

/-- THE BRIDGE. With the node features and the first weight row finite, summing the scalar first and applying the
    weight afterwards gives the same hidden features as applying the weight first. -/
theorem hid_eq (sw dw rw : Fin NE → BitVec 32) (x : Fin NN → EReal) (w1 b1 : Fin 32 → EReal)
    (hx : ∀ n, ∃ r : ℝ, x n = (r : EReal)) (hw : ∀ j, ∃ r : ℝ, w1 j = (r : EReal)) :
    hidK sw dw rw x w1 b1 = hidR sw dw rw x w1 b1 := by
  funext n j
  unfold hidK hidR
  have key : (scat dw (fun e => msg1 sw x (row rw e)) n * nI dw n) * w1 j
      = scat dw (fun e => msg1 sw x (row rw e) * w1 j) n * nI dw n := by
    rw [mul_right_comm]
    refine congrArg (fun t => t * nI dw n) ?_
    obtain ⟨w, hw'⟩ := hw j
    have ha : ∀ m, ∃ r : ℝ, msg1 sw x m = (r : EReal) := by
      intro m
      obtain ⟨r, hr⟩ := hx m
      obtain ⟨s, hs⟩ := nrm_deg_real sw m
      refine ⟨r * s, ?_⟩
      unfold msg1 nO
      rw [hr, hs, EReal.coe_mul]
    choose a ha' using ha
    unfold scat
    simp only [ha', hw']
    exact cond_sum_mul Finset.univ (fun e => (dw e).toInt = (n.val : ℤ)) (fun e => a (row rw e)) w
  rw [key]

/-- With finite node features and a finite first weight row the two forms of the whole result agree. -/
theorem result_eq (x0 : (⟨2, ![200000, 1]⟩ : Shape).Idx → EReal) (x1 : (⟨2, ![2, 6400000]⟩ : Shape).Idx → BitVec 32)
    (x2 : (⟨1, ![200000]⟩ : Shape).Idx → BitVec 32) (x3 : (⟨2, ![1, 32]⟩ : Shape).Idx → EReal)
    (x4 : (⟨1, ![32]⟩ : Shape).Idx → EReal) (x5 : (⟨2, ![32, 1]⟩ : Shape).Idx → EReal) (x6 : (⟨1, ![1]⟩ : Shape).Idx → EReal)
    (hx : ∀ i, ∃ r : ℝ, x0 i = (r : EReal)) (hw : ∀ i, ∃ r : ℝ, x3 i = (r : EReal)) :
    resultK x0 x1 x2 x3 x4 x5 x6 = resultR x0 x1 x2 x3 x4 x5 x6 := by
  unfold resultK resultR
  rw [hid_eq (swOf x1) (dwOf x1) (rwOf x1) (xOf x0) (w1Of x3) (b1Of x4) (fun n => hx _) (fun j => hw _)]

/-- A sum over 200000 = 100 · 2000 indices taken block by block. -/
theorem sum_blocks {M : Type*} [AddCommMonoid M] (B R : ℕ) (f : Fin (B * R) → M) :
    ∑ t : Fin B, ∑ r : Fin R, f ⟨t.val * R + r.val, by
      have ht := t.isLt; have hr := r.isLt
      calc t.val * R + r.val < t.val * R + R := by omega
        _ = (t.val + 1) * R := by ring
        _ ≤ B * R := Nat.mul_le_mul_right R ht⟩ = ∑ m : Fin (B * R), f m := by
  rw [← Equiv.sum_comp (finProdFinEquiv (m := B) (n := R)) f, Fintype.sum_prod_type]
  refine Finset.sum_congr rfl fun t _ => Finset.sum_congr rfl fun r _ => ?_
  congr 1
  apply Fin.ext
  show t.val * R + r.val = r.val + R * t.val
  rw [Nat.mul_comm, Nat.add_comm]

end Cert.Spec

end
-- ==== Proof.Finite.lean ====
import proofs.«430448_j86981677679168_2_alg».proof.Defs
import proofs.«430448_j86981677679168_2_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Idealize.ShloMosaic.ValueIdx

/-- The rank-0 shape has exactly one index. -/
local instance subsingleton_scalar_idx : Subsingleton Cert.Pre_finite_inputs.S_.Idx :=
  ⟨fun a b => funext fun d => d.elim0⟩

/-- The f32 word with all exponent bits set and an empty mantissa is +∞. -/
theorem inf_bits : Ideal.ofBits .f32 0x7F800000#32 = (⊤ : EReal) := by
  simp [Ideal.ofBits, Ideal.ieee]

/-- An extended real whose absolute value, max x (-x), lies strictly below +∞ is a real:
    at either infinity the maximum is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- One element of the test |a| < +∞ (the +∞ broadcast from a scalar constant) coming out true
    says that element of a is a real. -/
theorem real_of_cmp {s : Shape} (a : FVec Ideal s .f32)
    (hb : Cert.Pre_finite_inputs.S_.BroadcastsInDim s (![] : Fin 0 → Fin s.rank)) (i : s.Idx)
    (h : cmpf .olt (Host.absf a)
      (broadcastInDim s ![] hb (constant Cert.Pre_finite_inputs.S_ .f32 0x7F800000#32)) i = 1#1) :
    ∃ r : ℝ, (a i : EReal) = (r : EReal) := by
  rw [cmpf_apply, Ideal.cmpf_def] at h
  have hc : broadcastInDim s ![] hb (constant (F := Ideal) Cert.Pre_finite_inputs.S_ .f32 0x7F800000#32) i
      = (⊤ : EReal) := by
    unfold broadcastInDim
    rw [constant_apply, inf_bits]
  have ha : Host.absf a i = max (a i : EReal) (-(a i : EReal)) := rfl
  rw [hc, ha] at h
  have hlt : max (a i : EReal) (-(a i : EReal)) < ⊤ := by
    by_contra hn
    simp only [Ideal.cmp] at h
    rw [decide_eq_false hn] at h
    exact absurd h (by decide)
  exact real_of_abs_lt_top _ hlt

/-- The precondition is a conjunction of five "all elements finite" tests; the first two are
    those of the node features and of the first weight row. -/
theorem first_two [Cert.Pre_finite_inputs.Facts]
    (a0 : FVec Ideal Cert.Pre_finite_inputs.S200000x1 .f32) (a1 : IVec Cert.Pre_finite_inputs.S2x6400000 32)
    (a2 : IVec Cert.Pre_finite_inputs.S200000 32) (a3 : FVec Ideal Cert.Pre_finite_inputs.S1x32 .f32)
    (a4 : FVec Ideal Cert.Pre_finite_inputs.S32 .f32) (a5 : FVec Ideal Cert.Pre_finite_inputs.S32x1 .f32)
    (a6 : FVec Ideal Cert.Pre_finite_inputs.S1 .f32)
    (h : Cert.Pre_finite_inputs.fn (F := Ideal) a0 a1 a2 a3 a4 a5 a6 = fun _ => 1#1) :
    (∀ i : Cert.Pre_finite_inputs.S200000x1.Idx, ∃ r : ℝ, (a0 i : EReal) = (r : EReal)) ∧
    (∀ i : Cert.Pre_finite_inputs.S1x32.Idx, ∃ r : ℝ, (a3 i : EReal) = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨hx, hw⟩ := IntOp.andi_eq_one.1 h3
  exact ⟨fun i => real_of_cmp a0 _ i (Host.reduce_andi_all _ _ _ _ ValueIdx.ix0 hx i),
    fun i => real_of_cmp a3 _ i (Host.reduce_andi_all _ _ _ _ ValueIdx.ix0 hw i)⟩

/-- Under the precondition every node feature is a finite real … -/
theorem x_real [Cert.Pre_finite_inputs.Facts]
    (a0 : FVec Ideal Cert.Pre_finite_inputs.S200000x1 .f32) (a1 : IVec Cert.Pre_finite_inputs.S2x6400000 32)
    (a2 : IVec Cert.Pre_finite_inputs.S200000 32) (a3 : FVec Ideal Cert.Pre_finite_inputs.S1x32 .f32)
    (a4 : FVec Ideal Cert.Pre_finite_inputs.S32 .f32) (a5 : FVec Ideal Cert.Pre_finite_inputs.S32x1 .f32)
    (a6 : FVec Ideal Cert.Pre_finite_inputs.S1 .f32)
    (h : Cert.Pre_finite_inputs.fn (F := Ideal) a0 a1 a2 a3 a4 a5 a6 = fun _ => 1#1)
    (i : Cert.Pre_finite_inputs.S200000x1.Idx) : ∃ r : ℝ, (a0 i : EReal) = (r : EReal) := by
  exact (first_two a0 a1 a2 a3 a4 a5 a6 h).1 i

/-- … and so is every entry of the first weight row. -/
theorem w1_real [Cert.Pre_finite_inputs.Facts]
    (a0 : FVec Ideal Cert.Pre_finite_inputs.S200000x1 .f32) (a1 : IVec Cert.Pre_finite_inputs.S2x6400000 32)
    (a2 : IVec Cert.Pre_finite_inputs.S200000 32) (a3 : FVec Ideal Cert.Pre_finite_inputs.S1x32 .f32)
    (a4 : FVec Ideal Cert.Pre_finite_inputs.S32 .f32) (a5 : FVec Ideal Cert.Pre_finite_inputs.S32x1 .f32)
    (a6 : FVec Ideal Cert.Pre_finite_inputs.S1 .f32)
    (h : Cert.Pre_finite_inputs.fn (F := Ideal) a0 a1 a2 a3 a4 a5 a6 = fun _ => 1#1)
    (i : Cert.Pre_finite_inputs.S1x32.Idx) : ∃ r : ℝ, (a3 i : EReal) = (r : EReal) := by
  exact (first_two a0 a1 a2 a3 a4 a5 a6 h).2 i

end Cert.Finite

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KReg0.lean ====
import proofs.«430448_j86981677679168_2_alg».proof.Proof.Gen.KernelIdeal.Frame
import proofs.«430448_j86981677679168_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Reg0

open Idealize.ShloMosaic Idealize.ShloMosaic.TcCoe Idealize.ShloMosaic.ValueIdx Idealize.SL.Sem
open Cert.KernelIdeal Cert.KernelIdeal.Gen

/-! ## The body at one entry

The body is pointwise: where the loaded degree d is positive it stores the inverse square root of max d 1,
elsewhere 0. That is the normalisation of d. -/

/-- The word of the float one reads the extended real 1. -/
theorem one_word : Ideal.ofBits .f32 0x3F800000#32 = 1 := by
  simp [Ideal.ofBits, Ideal.ieee]
  rw [← EReal.coe_mul]
  norm_num

/-- The first stored value at an entry is the normalisation of the first loaded block's entry there. -/
theorem pay1_apply (x : Vec Ideal S1000x1 .f32) (y : S1000x1.Idx) :
    k0_pay1 (F := Ideal) x y = Cert.Spec.nrm (x y) := by
  unfold k0_pay1
  simp only [select_apply, cmpf_apply, broadcast_apply, shapeCast_self]
  show Scalar.select (FloatOps.cmpf (F := Ideal) (φ := .f32) .ogt (x y) (FloatOps.ofBits .f32 0x00000000#32))
      (FloatOps.rsqrt (F := Ideal) (φ := .f32) (max (x y : EReal) (FloatOps.ofBits (F := Ideal) .f32 0x3F800000#32)))
      (FloatOps.ofBits (F := Ideal) .f32 0x00000000#32) = _
  rw [Ideal.ofBits_def, Ideal.ofBits_def, Ideal.ofBits_zero_f32, one_word, Ideal.cmpf_def, Ideal.rsqrt_def]
  unfold Ideal.cmp Scalar.select Cert.Spec.nrm
  by_cases h : 0 < (x y : EReal) <;> simp [h]

/-- The second stored value at an entry is the normalisation of the second loaded block's entry there. -/
theorem pay2_apply (x : Vec Ideal S1000x1 .f32) (y : S1000x1.Idx) :
    k0_pay2 (F := Ideal) x y = Cert.Spec.nrm (x y) := by
  unfold k0_pay2
  simp only [select_apply, cmpf_apply, broadcast_apply, shapeCast_self]
  show Scalar.select (FloatOps.cmpf (F := Ideal) (φ := .f32) .ogt (x y) (FloatOps.ofBits .f32 0x00000000#32))
      (FloatOps.rsqrt (F := Ideal) (φ := .f32) (max (x y : EReal) (FloatOps.ofBits (F := Ideal) .f32 0x3F800000#32)))
      (FloatOps.ofBits (F := Ideal) .f32 0x00000000#32) = _
  rw [Ideal.ofBits_def, Ideal.ofBits_def, Ideal.ofBits_zero_f32, one_word, Ideal.cmpf_def, Ideal.rsqrt_def]
  unfold Ideal.cmp Scalar.select Cert.Spec.nrm
  by_cases h : 0 < (x y : EReal) <;> simp [h]

/-! ## From a point's block to the whole array -/

theorem origin_zero : (![0, 0] : Fin 2 → Nat) = fun _ => 0 := funext fun a => by fin_cases a <;> rfl

/-- The normalisation applied to every entry of a degree array. -/
abbrev nrmArr (a : S200000x1.Idx → EReal) : S200000x1.Idx → EReal := fun i => Cert.Spec.nrm (a i)

/-- What the body leaves in the first result's block, from the first loaded block: its normalisation, entry by entry. -/
theorem outBlock2 (x0 x1 : Vec Ideal S1000x1 .f32) : out0_2 x0 x1 = fun y => Cert.Spec.nrm (x0 y) := by
  unfold out0_2
  rw [View.canon_unit_zero origin_zero]
  simp only [View.ld_unit_zero (S := S1000x1) origin_zero]
  exact funext fun y => pay1_apply x0 y

/-- … and in the second result's block, from the second loaded block. -/
theorem outBlock3 (x0 x1 : Vec Ideal S1000x1 .f32) : out0_3 x0 x1 = fun y => Cert.Spec.nrm (x1 y) := by
  unfold out0_3
  rw [View.canon_unit_zero origin_zero]
  simp only [View.ld_unit_zero (S := S1000x1) origin_zero]
  exact funext fun y => pay2_apply x1 y

/-- The four index maps, decided over the 200 points: point t takes block (t, 0) of every array. -/
theorem index_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The two degree arrays the normalisation call reads, as the call finds them, and the two arrays it leaves, each
    at its literal type. -/
abbrev degOutArr (c : Dev nD) : S200000x1.Idx → EReal := V c main_v8
abbrev degInArr (c : Dev nD) : S200000x1.Idx → EReal := V c main_v12
abbrev normOutArr (c : Dev nD) : S200000x1.Idx → EReal := (dat0 (F := Ideal) V c).arrAt 2 cfg0.N
abbrev normInArr (c : Dev nD) : S200000x1.Idx → EReal := (dat0 (F := Ideal) V c).arrAt 3 cfg0.N

/-- What point t writes back to the first result array is block t of the out-degree array's normalisation. -/
theorem normOut_flushed (c : Dev nD) (t : Fin cfg0.N) :
    (dat0 (F := Ideal) V c).flushed 2 t
      = ((cfg0.win 2).blk t).view.read (Elt Ideal) (nrmArr (V c main_v8)) := by
  show (cfg0.win 2).cut (grid0.coords t) ((dat0 (F := Ideal) V c).after 2 t) = _
  rw [after0_2, outBlock2]
  obtain ⟨a0, a1, b0, b1, c0, c1, d0, d1⟩ := index_at t
  funext j
  show Cert.Spec.nrm (V c main_v8 (((cfg0.win 0).blk t).view.emb j))
    = Cert.Spec.nrm (V c main_v8 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1 + 1 * (j 1).val = win0_2.index t (1 : Fin 2) * 1 + 1 * (j 1).val; omega
  rw [h0]

/-- … and to the second result array block t of the in-degree array's normalisation. -/
theorem normIn_flushed (c : Dev nD) (t : Fin cfg0.N) :
    (dat0 (F := Ideal) V c).flushed 3 t
      = ((cfg0.win 3).blk t).view.read (Elt Ideal) (nrmArr (V c main_v12)) := by
  show (cfg0.win 3).cut (grid0.coords t) ((dat0 (F := Ideal) V c).after 3 t) = _
  rw [after0_3, outBlock3]
  obtain ⟨a0, a1, b0, b1, c0, c1, d0, d1⟩ := index_at t
  funext j
  show Cert.Spec.nrm (V c main_v12 (((cfg0.win 1).blk t).view.emb j))
    = Cert.Spec.nrm (V c main_v12 (((cfg0.win 3).blk t).view.emb j))
  have h1 : ((cfg0.win 1).blk t).view.emb j = ((cfg0.win 3).blk t).view.emb j := by
    funext a; apply Fin.ext
    match a with
    | ⟨0, _⟩ => show win0_1.index t (0 : Fin 2) * 1000 + 1 * (j 0).val = win0_3.index t (0 : Fin 2) * 1000 + 1 * (j 0).val; omega
    | ⟨1, _⟩ => show win0_1.index t (1 : Fin 2) * 1 + 1 * (j 1).val = win0_3.index t (1 : Fin 2) * 1 + 1 * (j 1).val; omega
  rw [h1]

/-- An index of the first result array is in point t's block iff each coordinate is in the block's range on its axis. -/
theorem mem_block2 (t : Fin cfg0.N) (i : S200000x1.Idx) :
    i ∈ ((cfg0.win 2).blk t).view.set ↔ ∀ a : Fin 2, win0_2.index t a * S1000x1.size a ≤ (i a).val
      ∧ (i a).val < win0_2.index t a * S1000x1.size a + S1000x1.size a := by
  show i ∈ ((View.whole main_v13_0).slice (win0_2.rect t)).set ↔ _
  rw [View.set_slice_whole, Rect.mem_set_unit]
  exact Iff.rfl

theorem mem_block3 (t : Fin cfg0.N) (i : S200000x1.Idx) :
    i ∈ ((cfg0.win 3).blk t).view.set ↔ ∀ a : Fin 2, win0_3.index t a * S1000x1.size a ≤ (i a).val
      ∧ (i a).val < win0_3.index t a * S1000x1.size a + S1000x1.size a := by
  show i ∈ ((View.whole main_v13_1).slice (win0_3.rect t)).set ↔ _
  rw [View.set_slice_whole, Rect.mem_set_unit]
  exact Iff.rfl

/-- The point whose block holds row r: r / 1000. -/
def pointOf (i : S200000x1.Idx) : Fin cfg0.N :=
  ⟨(i 0).val / 1000, by have h : (i 0).val < 200000 := (i 0).isLt; show (i 0).val / 1000 < 200; omega⟩

/-- Every row of the first result array is in the block of the point r / 1000, which writes back. -/
theorem cover2 (i : S200000x1.Idx) :
    ∃ t : Fin cfg0.N, (cfg0.win 2).flush t = true ∧ i ∈ ((cfg0.win 2).blk t).view.set := by
  have hi0 : (i 0).val < 200000 := (i 0).isLt
  have hi1 : (i 1).val < 1 := (i 1).isLt
  refine ⟨pointOf i, flush0_2 _, ?_⟩
  rw [mem_block2]
  obtain ⟨a0, a1, b0, b1, c0, c1, d0, d1⟩ := index_at (pointOf i)
  have hp : (pointOf i).val = (i 0).val / 1000 := rfl
  intro a
  match a with
  | ⟨0, _⟩ => show win0_2.index (pointOf i) (0 : Fin 2) * 1000 ≤ (i 0).val ∧ (i 0).val < win0_2.index (pointOf i) (0 : Fin 2) * 1000 + 1000; omega
  | ⟨1, _⟩ => show win0_2.index (pointOf i) (1 : Fin 2) * 1 ≤ (i 1).val ∧ (i 1).val < win0_2.index (pointOf i) (1 : Fin 2) * 1 + 1; omega

theorem cover3 (i : S200000x1.Idx) :
    ∃ t : Fin cfg0.N, (cfg0.win 3).flush t = true ∧ i ∈ ((cfg0.win 3).blk t).view.set := by
  have hi0 : (i 0).val < 200000 := (i 0).isLt
  have hi1 : (i 1).val < 1 := (i 1).isLt
  refine ⟨pointOf i, flush0_3 _, ?_⟩
  rw [mem_block3]
  obtain ⟨a0, a1, b0, b1, c0, c1, d0, d1⟩ := index_at (pointOf i)
  have hp : (pointOf i).val = (i 0).val / 1000 := rfl
  intro a
  match a with
  | ⟨0, _⟩ => show win0_3.index (pointOf i) (0 : Fin 2) * 1000 ≤ (i 0).val ∧ (i 0).val < win0_3.index (pointOf i) (0 : Fin 2) * 1000 + 1000; omega
  | ⟨1, _⟩ => show win0_3.index (pointOf i) (1 : Fin 2) * 1 ≤ (i 1).val ∧ (i 1).val < win0_3.index (pointOf i) (1 : Fin 2) * 1 + 1; omega

/-- The first result array after the call is the out-degree array's normalisation, … -/
theorem normOut_array (c : Dev nD) :
    (dat0 (F := Ideal) V c).arrAt 2 cfg0.N = nrmArr (V c main_v8) :=
  (dat0 (F := Ideal) V c).arrAt_eq_of_cover 2 (nrmArr (V c main_v8)) (fun t _ => normOut_flushed V c t) cover2

/-- … the second the in-degree array's. -/
theorem normIn_array (c : Dev nD) :
    (dat0 (F := Ideal) V c).arrAt 3 cfg0.N = nrmArr (V c main_v12) :=
  (dat0 (F := Ideal) V c).arrAt_eq_of_cover 3 (nrmArr (V c main_v12)) (fun t _ => normIn_flushed V c t) cover3

/-- After the normalisation call, its first result array holds at row n the normalisation of the out-degree array's row n. -/
theorem normOut_entry (c : Dev nD) (n : Fin 200000) :
    normOutArr V c (ix2 n (0 : Fin 1)) = Cert.Spec.nrm (degOutArr V c (ix2 n (0 : Fin 1))) :=
  congrFun (normOut_array V c) (ix2 n (0 : Fin 1))

/-- … and its second result array the normalisation of the in-degree array's row n. -/
theorem normIn_entry (c : Dev nD) (n : Fin 200000) :
    normInArr V c (ix2 n (0 : Fin 1)) = Cert.Spec.nrm (degInArr V c (ix2 n (0 : Fin 1))) :=
  congrFun (normIn_array V c) (ix2 n (0 : Fin 1))

end Cert.KernelIdeal.Reg0

end
-- ==== Proof.KReg1.lean ====
import proofs.«430448_j86981677679168_2_alg».proof.Proof.Gen.KernelIdeal.Frame
import proofs.«430448_j86981677679168_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays the layer call reads, as the call finds them, and the array it leaves, each at its literal type. -/
abbrev aggArr (c : Dev nD) : S200000x1.Idx → EReal := V c main_v24
abbrev nInArr (c : Dev nD) : S200000x1.Idx → EReal := V c main_v13_1
abbrev nOutArr (c : Dev nD) : S200000x1.Idx → EReal := V c main_v13_0
abbrev w1Arr (c : Dev nD) : S1x32.Idx → EReal := V c main_arg3
abbrev b1Arr (c : Dev nD) : S1x32.Idx → EReal := V c main_v25
abbrev w2Arr (c : Dev nD) : S32x1.Idx → EReal := V c main_arg5
abbrev outArr (c : Dev nD) : S200000x1.Idx → EReal := (dat1 (F := Ideal) V c).arrAt 6 cfg1.N

/-! ## The contraction's operand indices -/

theorem lhs_mm_0 (i : S1000x1.Idx) (q : dot_S1000x32_S32x1_S1000x1_1_0_0_1_n_n.contr.Idx) :
    (dot_S1000x32_S32x1_S1000x1_1_0_0_1_n_n.lhsIdx i q 0).val = (i 0).val := by
  unfold DotDims.lhsIdx
  rw [dif_neg (show ¬(0 : Fin S1000x32.rank) ∈ dot_S1000x32_S32x1_S1000x1_1_0_0_1_n_n.lhsBatch by decide), dif_pos (show (0 : Fin S1000x32.rank) ∈ dot_S1000x32_S32x1_S1000x1_1_0_0_1_n_n.lhsNonContracting by decide)]
  rfl
theorem lhs_mm_1 (i : S1000x1.Idx) (q : dot_S1000x32_S32x1_S1000x1_1_0_0_1_n_n.contr.Idx) :
    (dot_S1000x32_S32x1_S1000x1_1_0_0_1_n_n.lhsIdx i q 1).val = (q ⟨0, by decide⟩).val :=
  dot_S1000x32_S32x1_S1000x1_1_0_0_1_n_n.lhsIdx_val_of_single rfl i q
theorem rhs_mm_0 (i : S1000x1.Idx) (q : dot_S1000x32_S32x1_S1000x1_1_0_0_1_n_n.contr.Idx) :
    (dot_S1000x32_S32x1_S1000x1_1_0_0_1_n_n.rhsIdx i q 0).val = (q ⟨0, by decide⟩).val :=
  dot_S1000x32_S32x1_S1000x1_1_0_0_1_n_n.rhsIdx_val_of_single rfl i q
theorem rhs_mm_1 (i : S1000x1.Idx) (q : dot_S1000x32_S32x1_S1000x1_1_0_0_1_n_n.contr.Idx) :
    (dot_S1000x32_S32x1_S1000x1_1_0_0_1_n_n.rhsIdx i q 1).val = (i 1).val := by
  unfold DotDims.rhsIdx
  rw [dif_neg (show ¬(1 : Fin S32x1.rank) ∈ dot_S1000x32_S32x1_S1000x1_1_0_0_1_n_n.rhsBatch by decide), dif_pos (show (1 : Fin S32x1.rank) ∈ dot_S1000x32_S32x1_S1000x1_1_0_0_1_n_n.rhsNonContracting by decide)]
  rfl

/-- A column spread along the lanes reads, at row r and lane j, the column's entry of row r. -/
theorem col_spread {α : Type} (x : S1000x1.Idx → α) (r : Fin 1000) (j : Fin 32) :
    broadcastTo S1000x32 x broadcasts_S1000x1_S1000x32 (ix2 r j) = x (ix2 r (0 : Fin 1)) :=
  broadcastTo_apply x broadcasts_S1000x1_S1000x32 (ix2 r j) (ix2 r (0 : Fin 1)) (fun a => by
    match a with
    | ⟨0, _⟩ => rfl
    | ⟨1, _⟩ => rfl)

/-- A row spread along the sublanes reads, at row r and lane j, the row's entry of lane j. -/
theorem row_spread {α : Type} (x : S1x32.Idx → α) (r : Fin 1000) (j : Fin 32) :
    broadcastTo S1000x32 x broadcasts_S1x32_S1000x32 (ix2 r j) = x (ix2 (0 : Fin 1) j) :=
  broadcastTo_apply x broadcasts_S1x32_S1000x32 (ix2 r j) (ix2 (0 : Fin 1) j) (fun a => by
    match a with
    | ⟨0, _⟩ => rfl
    | ⟨1, _⟩ => rfl)

/-- The body's stored value at row r of its block: the rectified hidden row, scaled, contracted with the second weight column. -/
theorem pay_apply (v0 v2 v15 : Vec Ideal S1000x1 .f32) (v5 v9 : Vec Ideal S1x32 .f32) (v20 : Vec Ideal S32x1 .f32) (r : Fin 1000) :
    k1_pay1 (F := Ideal) v0 v2 v5 v9 v15 v20 (ix2 r (0 : Fin 1))
      = ∑ j : Fin 32, (max ((v0 (ix2 r (0 : Fin 1)) * v2 (ix2 r (0 : Fin 1))) * v5 (ix2 (0 : Fin 1) j) + v9 (ix2 (0 : Fin 1) j)) 0
            * v15 (ix2 r (0 : Fin 1))) * v20 (ix2 j (0 : Fin 1)) := by
  unfold k1_pay1
  simp only [matmul]
  rw [Ideal.matmul_constant_zero_apply, ← Equiv.sum_comp (ValueIdx.contrEquiv1 dot_S1000x32_S32x1_S1000x1_1_0_0_1_n_n 32 rfl rfl).symm]
  refine Finset.sum_congr rfl fun k _ => ?_
  have hk := ValueIdx.contrEquiv1_symm_val dot_S1000x32_S32x1_S1000x1_1_0_0_1_n_n 32 rfl rfl k
  have el : dot_S1000x32_S32x1_S1000x1_1_0_0_1_n_n.lhsIdx (ix2 r (0 : Fin 1)) ((ValueIdx.contrEquiv1 dot_S1000x32_S32x1_S1000x1_1_0_0_1_n_n 32 rfl rfl).symm k) = ix2 r k := funext fun a => Fin.ext (by
    match a with
    | ⟨0, _⟩ => exact lhs_mm_0 _ _
    | ⟨1, _⟩ => exact (lhs_mm_1 _ _).trans hk)
  have er : dot_S1000x32_S32x1_S1000x1_1_0_0_1_n_n.rhsIdx (ix2 r (0 : Fin 1)) ((ValueIdx.contrEquiv1 dot_S1000x32_S32x1_S1000x1_1_0_0_1_n_n 32 rfl rfl).symm k) = ix2 k (0 : Fin 1) := funext fun a => Fin.ext (by
    match a with
    | ⟨0, _⟩ => exact (rhs_mm_0 _ _).trans hk
    | ⟨1, _⟩ => exact rhs_mm_1 _ _)
  rw [el, er]
  simp only [truncf_apply, mulf_apply, addf_apply, maximumf_apply, broadcast_apply, col_spread, row_spread, shapeCast_self]
  rw [show (FloatOps.ofBits FTy.f32 0x00000000#32 : Ideal .f32) = 0 from Ideal.ofBits_zero_f32]

/-! ## From the blocks to the array -/

theorem zero_offsets : (![0, 0] : Fin 2 → Nat) = fun _ => 0 := funext fun a => by fin_cases a <;> rfl

/-- The layer's result as one function of whole arrays: row by row, the rectified hidden row, scaled, against the second weight column. -/
abbrev layerRows (a nin nout : S200000x1.Idx → EReal) (w1 b1 : S1x32.Idx → EReal) (w2 : S32x1.Idx → EReal) : S200000x1.Idx → EReal :=
  fun i => ∑ j : Fin 32, (max ((a i * nin i) * w1 (ix2 (0 : Fin 1) j) + b1 (ix2 (0 : Fin 1) j)) 0 * nout i) * w2 (ix2 j (0 : Fin 1))

/-- The index maps over the grid: the three row-blocked inputs move with the output, the three whole-array inputs stay at block (0, 0), and the output's block index is the point's number. -/
theorem index_facts : ∀ t : Fin cfg1.N,
    win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = win1_6.index t (0 : Fin 2) ∧ win1_2.index t (1 : Fin 2) = win1_6.index t (1 : Fin 2)
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem rows_emb0 (t : Fin cfg1.N) (y : S1000x1.Idx) : ((cfg1.win 0).blk t).view.emb y = ((cfg1.win 6).blk t).view.emb y := by
  obtain ⟨e00, e01, e10, e11, e20, e21, e30, e31, e40, e41, e50, e51, e60, e61⟩ := index_facts t
  funext a; apply Fin.ext
  match a with
  | ⟨0, _⟩ => show win1_0.index t (0 : Fin 2) * 1000 + 1 * (y 0).val = win1_6.index t (0 : Fin 2) * 1000 + 1 * (y 0).val; omega
  | ⟨1, _⟩ => show win1_0.index t (1 : Fin 2) * 1 + 1 * (y 1).val = win1_6.index t (1 : Fin 2) * 1 + 1 * (y 1).val; omega

theorem rows_emb1 (t : Fin cfg1.N) (y : S1000x1.Idx) : ((cfg1.win 1).blk t).view.emb y = ((cfg1.win 6).blk t).view.emb y := by
  obtain ⟨e00, e01, e10, e11, e20, e21, e30, e31, e40, e41, e50, e51, e60, e61⟩ := index_facts t
  funext a; apply Fin.ext
  match a with
  | ⟨0, _⟩ => show win1_1.index t (0 : Fin 2) * 1000 + 1 * (y 0).val = win1_6.index t (0 : Fin 2) * 1000 + 1 * (y 0).val; omega
  | ⟨1, _⟩ => show win1_1.index t (1 : Fin 2) * 1 + 1 * (y 1).val = win1_6.index t (1 : Fin 2) * 1 + 1 * (y 1).val; omega

theorem rows_emb2 (t : Fin cfg1.N) (y : S1000x1.Idx) : ((cfg1.win 2).blk t).view.emb y = ((cfg1.win 6).blk t).view.emb y := by
  obtain ⟨e00, e01, e10, e11, e20, e21, e30, e31, e40, e41, e50, e51, e60, e61⟩ := index_facts t
  funext a; apply Fin.ext
  match a with
  | ⟨0, _⟩ => show win1_2.index t (0 : Fin 2) * 1000 + 1 * (y 0).val = win1_6.index t (0 : Fin 2) * 1000 + 1 * (y 0).val; omega
  | ⟨1, _⟩ => show win1_2.index t (1 : Fin 2) * 1 + 1 * (y 1).val = win1_6.index t (1 : Fin 2) * 1 + 1 * (y 1).val; omega

theorem whole_emb3 (t : Fin cfg1.N) (y : S1x32.Idx) : ((cfg1.win 3).blk t).view.emb y = y := by
  obtain ⟨e00, e01, e10, e11, e20, e21, e30, e31, e40, e41, e50, e51, e60, e61⟩ := index_facts t
  funext a; apply Fin.ext
  match a with
  | ⟨0, _⟩ => show win1_3.index t (0 : Fin 2) * 1 + 1 * (y 0).val = (y 0).val; omega
  | ⟨1, _⟩ => show win1_3.index t (1 : Fin 2) * 32 + 1 * (y 1).val = (y 1).val; omega

theorem whole_emb4 (t : Fin cfg1.N) (y : S1x32.Idx) : ((cfg1.win 4).blk t).view.emb y = y := by
  obtain ⟨e00, e01, e10, e11, e20, e21, e30, e31, e40, e41, e50, e51, e60, e61⟩ := index_facts t
  funext a; apply Fin.ext
  match a with
  | ⟨0, _⟩ => show win1_4.index t (0 : Fin 2) * 1 + 1 * (y 0).val = (y 0).val; omega
  | ⟨1, _⟩ => show win1_4.index t (1 : Fin 2) * 32 + 1 * (y 1).val = (y 1).val; omega

theorem whole_emb5 (t : Fin cfg1.N) (y : S32x1.Idx) : ((cfg1.win 5).blk t).view.emb y = y := by
  obtain ⟨e00, e01, e10, e11, e20, e21, e30, e31, e40, e41, e50, e51, e60, e61⟩ := index_facts t
  funext a; apply Fin.ext
  match a with
  | ⟨0, _⟩ => show win1_5.index t (0 : Fin 2) * 32 + 1 * (y 0).val = (y 0).val; omega
  | ⟨1, _⟩ => show win1_5.index t (1 : Fin 2) * 1 + 1 * (y 1).val = (y 1).val; omega

/-- What point t writes back is block t of the layer's row function of the arrays the call finds. -/
theorem flushed_eq (c : Dev nD) (t : Fin cfg1.N) :
    (dat1 (F := Ideal) V c).flushed 6 t
      = ((cfg1.win 6).blk t).view.read (Elt Ideal)
          (layerRows (aggArr V c) (nInArr V c) (nOutArr V c) (w1Arr V c) (b1Arr V c) (w2Arr V c)) := by
  show (cfg1.win 6).cut (grid1.coords t) ((dat1 (F := Ideal) V c).after 6 t) = _
  rw [after1_6]
  unfold out1_6
  rw [View.canon_unit_zero zero_offsets]
  simp only [View.ld_unit_zero (S := S1000x1) zero_offsets, View.ld_unit_zero (S := S1x32) zero_offsets, View.ld_unit_zero (S := S32x1) zero_offsets]
  refine funext fun (y : S1000x1.Idx) => ?_
  obtain ⟨r, q, rfl⟩ : ∃ (r : Fin 1000) (q : Fin 1), y = ix2 r q := ⟨y 0, y 1, eq_ix2 y⟩
  obtain rfl : q = 0 := Subsingleton.elim q 0
  show k1_pay1 (F := Ideal) (iblk1 V c 0 t) (iblk1 V c 1 t) (iblk1 V c 3 t) (iblk1 V c 4 t) (iblk1 V c 2 t) (iblk1 V c 5 t) (ix2 r (0 : Fin 1))
      = layerRows (aggArr V c) (nInArr V c) (nOutArr V c) (w1Arr V c) (b1Arr V c) (w2Arr V c) (((cfg1.win 6).blk t).view.emb (ix2 r (0 : Fin 1)))
  refine (pay_apply (iblk1 V c 0 t) (iblk1 V c 1 t) (iblk1 V c 2 t) (iblk1 V c 3 t) (iblk1 V c 4 t) (iblk1 V c 5 t) r).trans ?_
  refine Finset.sum_congr rfl fun j _ => ?_
  show (max ((aggArr V c (((cfg1.win 0).blk t).view.emb (ix2 r (0 : Fin 1))) * nInArr V c (((cfg1.win 1).blk t).view.emb (ix2 r (0 : Fin 1))))
            * w1Arr V c (((cfg1.win 3).blk t).view.emb (ix2 (0 : Fin 1) j)) + b1Arr V c (((cfg1.win 4).blk t).view.emb (ix2 (0 : Fin 1) j))) 0
          * nOutArr V c (((cfg1.win 2).blk t).view.emb (ix2 r (0 : Fin 1)))) * w2Arr V c (((cfg1.win 5).blk t).view.emb (ix2 j (0 : Fin 1)))
      = (max ((aggArr V c (((cfg1.win 6).blk t).view.emb (ix2 r (0 : Fin 1))) * nInArr V c (((cfg1.win 6).blk t).view.emb (ix2 r (0 : Fin 1))))
            * w1Arr V c (ix2 (0 : Fin 1) j) + b1Arr V c (ix2 (0 : Fin 1) j)) 0
          * nOutArr V c (((cfg1.win 6).blk t).view.emb (ix2 r (0 : Fin 1)))) * w2Arr V c (ix2 j (0 : Fin 1))
  rw [rows_emb0, rows_emb1, rows_emb2, whole_emb3, whole_emb4, whole_emb5]

/-- An index of the result array is in point t's block iff each coordinate is in the block's range on its axis. -/
theorem mem_blk (t : Fin cfg1.N) (i : S200000x1.Idx) :
    i ∈ ((cfg1.win 6).blk t).view.set ↔ ∀ a : Fin 2, win1_6.index t a * S1000x1.size a ≤ (i a).val ∧ (i a).val < win1_6.index t a * S1000x1.size a + S1000x1.size a := by
  show i ∈ ((View.whole main_v26).slice (win1_6.rect t)).set ↔ _
  rw [View.set_slice_whole, Rect.mem_set_unit]
  exact Iff.rfl

/-- Row r of the result array is written back by the point r / 1000. -/
theorem cover (i : S200000x1.Idx) : ∃ t : Fin cfg1.N, (cfg1.win 6).flush t = true ∧ i ∈ ((cfg1.win 6).blk t).view.set := by
  have hi0 : (i 0).val < 200000 := (i 0).isLt
  have hi1 : (i 1).val < 1 := (i 1).isLt
  have hN : cfg1.N = 200 := N_1
  have ht : (i 0).val / 1000 < cfg1.N := by rw [hN]; omega
  obtain ⟨e00, e01, e10, e11, e20, e21, e30, e31, e40, e41, e50, e51, e60, e61⟩ := index_facts ⟨(i 0).val / 1000, ht⟩
  refine ⟨⟨(i 0).val / 1000, ht⟩, flush1_6 _, ?_⟩
  rw [mem_blk]
  intro a
  match a with
  | ⟨0, _⟩ =>
    show win1_6.index ⟨(i 0).val / 1000, ht⟩ (0 : Fin 2) * 1000 ≤ (i 0).val ∧ (i 0).val < win1_6.index ⟨(i 0).val / 1000, ht⟩ (0 : Fin 2) * 1000 + 1000
    rw [e60]; show (i 0).val / 1000 * 1000 ≤ (i 0).val ∧ (i 0).val < (i 0).val / 1000 * 1000 + 1000; omega
  | ⟨1, _⟩ =>
    show win1_6.index ⟨(i 0).val / 1000, ht⟩ (1 : Fin 2) * 1 ≤ (i 1).val ∧ (i 1).val < win1_6.index ⟨(i 0).val / 1000, ht⟩ (1 : Fin 2) * 1 + 1
    rw [e61]; omega

/-- The result array after the call is the layer's row function of the arrays the call finds. -/
theorem layer_array (c : Dev nD) :
    outArr V c = layerRows (aggArr V c) (nInArr V c) (nOutArr V c) (w1Arr V c) (b1Arr V c) (w2Arr V c) :=
  (dat1 (F := Ideal) V c).arrAt_eq_of_cover 6
    (layerRows (aggArr V c) (nInArr V c) (nOutArr V c) (w1Arr V c) (b1Arr V c) (w2Arr V c))
    (fun t _ => flushed_eq V c t) cover

/-- After the layer call, its result array holds at row n the second layer's message of node n: the rectified
    hidden features (the aggregated scalar times the in-normalisation, times the weight row, plus the bias row),
    scaled by the out-normalisation and contracted with the second weight column. -/
theorem layer_entry (c : Dev nD) (n : Fin 200000) :
    outArr V c (ix2 n (0 : Fin 1))
      = ∑ j : Fin 32,
          (max (((aggArr V c (ix2 n (0 : Fin 1)) * nInArr V c (ix2 n (0 : Fin 1))) * w1Arr V c (ix2 (0 : Fin 1) j))
                + b1Arr V c (ix2 (0 : Fin 1) j)) 0
            * nOutArr V c (ix2 n (0 : Fin 1)))
          * w2Arr V c (ix2 j (0 : Fin 1)) := by
  rw [layer_array]

end Cert.KernelIdeal.Reg1

end
-- ==== Proof.KReg2.lean ====
import proofs.«430448_j86981677679168_2_alg».proof.Proof.Gen.KernelIdeal.Frame
import proofs.«430448_j86981677679168_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Reg2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays the readout call reads, as the call finds them, and the two it leaves, each at its literal type. -/
abbrev agg2Arr (c : Dev nD) : S200000x1.Idx → EReal := V c main_v36
abbrev nInArr (c : Dev nD) : S200000x1.Idx → EReal := V c main_v13_1
abbrev b2Arr (c : Dev nD) : S1x1.Idx → EReal := V c main_v37
abbrev gidArr (c : Dev nD) : S200000x1.Idx → BitVec 32 := V c main_v38
abbrev sumsArr (c : Dev nD) : S1x1024.Idx → EReal := (dat2 (F := Ideal) V c).arrAt 4 cfg2.N
abbrev countsArr (c : Dev nD) : S1x1024.Idx → EReal := (dat2 (F := Ideal) V c).arrAt 5 cfg2.N

section Pieces
variable {F : FTy → Type} [FloatOps F]

/-- The zero offsets of a whole-buffer access. -/
theorem hz : (![0, 0] : Fin 2 → Nat) = fun _ => 0 := funext fun a => by fin_cases a <;> rfl

/-- Away from the first point the body leaves in the sums buffer the update of what the buffer held. -/
theorem piece_B_4 (c : Dev nD) (i : grid2.Coords) (a1 : Memref sig .tc .vmem S2000x1 .f32) (h1 : a1.IsWhole)
    (a2 : Memref sig .tc .vmem S2000x1 .f32) (h2 : a2.IsWhole) (a3 : Memref sig .tc .vmem S1x1 .f32) (h3 : a3.IsWhole)
    (a4 : Memref sig .tc .vmem S2000x1 .i32) (h4 : a4.IsWhole) (a5 : Memref sig .tc .vmem S1x1024 .f32) (h5 : a5.IsWhole)
    (a6 : Memref sig .tc .vmem S1x1024 .f32) (h6 : a6.IsWhole) (hc : ¬cond2_0 i)
    (x0 x1 : Vec F S2000x1 .f32) (x2 : Vec F S1x1 .f32) (x3 : Vec F S2000x1 .i32) (xo4 xo5 : Vec F S1x1024 .f32) :
    out2_B_4 c i a1 h1 a2 h2 a3 h3 a4 h4 a5 h5 a6 h6 hc x0 x1 x2 x3 xo4 xo5 = k2_pay4 x0 x1 x2 x3 xo4 := by
  unfold out2_B_4
  rw [View.read_writes_eq_canon _ _ _ (cover2_B_4 c i a1 h1 a2 h2 a3 h3 a4 h4 a5 h5 a6 h6 hc x0 x1 x2 x3 xo4 xo5)]
  unfold kernelRun2_B
  dsimp only
  sl_unfold_words
  rw [View.canon_unit_zero hz]
  simp only [View.readAt_eq_ld, h1.read_unread, h2.read_unread, h3.read_unread, h4.read_unread, h5.read_unread,
    View.ld_unit_zero (S := S2000x1) hz, View.ld_unit_zero (S := S1x1) hz, View.ld_unit_zero (S := S1x1024) hz]

/-- … and in the counts buffer the update of what that buffer held. -/
theorem piece_B_5 (c : Dev nD) (i : grid2.Coords) (a1 : Memref sig .tc .vmem S2000x1 .f32) (h1 : a1.IsWhole)
    (a2 : Memref sig .tc .vmem S2000x1 .f32) (h2 : a2.IsWhole) (a3 : Memref sig .tc .vmem S1x1 .f32) (h3 : a3.IsWhole)
    (a4 : Memref sig .tc .vmem S2000x1 .i32) (h4 : a4.IsWhole) (a5 : Memref sig .tc .vmem S1x1024 .f32) (h5 : a5.IsWhole)
    (a6 : Memref sig .tc .vmem S1x1024 .f32) (h6 : a6.IsWhole) (hc : ¬cond2_0 i)
    (x0 x1 : Vec F S2000x1 .f32) (x2 : Vec F S1x1 .f32) (x3 : Vec F S2000x1 .i32) (xo4 xo5 : Vec F S1x1024 .f32) :
    out2_B_5 c i a1 h1 a2 h2 a3 h3 a4 h4 a5 h5 a6 h6 hc x0 x1 x2 x3 xo4 xo5 = k2_pay5 x3 xo5 := by
  unfold out2_B_5
  rw [View.read_writes_eq_canon _ _ _ (cover2_B_5 c i a1 h1 a2 h2 a3 h3 a4 h4 a5 h5 a6 h6 hc x0 x1 x2 x3 xo4 xo5)]
  unfold kernelRun2_B
  dsimp only
  sl_unfold_words
  rw [View.canon_unit_zero hz]
  simp only [View.readAt_eq_ld, h4.read_unread, h6.read_unread,
    View.ld_unit_zero (S := S2000x1) hz, View.ld_unit_zero (S := S1x1024) hz]

/-- At the first point the body first zeroes the sums buffer, so it leaves the update of the zero row, -/
theorem piece_A_4 (c : Dev nD) (i : grid2.Coords) (a1 : Memref sig .tc .vmem S2000x1 .f32) (h1 : a1.IsWhole)
    (a2 : Memref sig .tc .vmem S2000x1 .f32) (h2 : a2.IsWhole) (a3 : Memref sig .tc .vmem S1x1 .f32) (h3 : a3.IsWhole)
    (a4 : Memref sig .tc .vmem S2000x1 .i32) (h4 : a4.IsWhole) (a5 : Memref sig .tc .vmem S1x1024 .f32) (h5 : a5.IsWhole)
    (a6 : Memref sig .tc .vmem S1x1024 .f32) (h6 : a6.IsWhole) (hc : cond2_0 i)
    (x0 x1 : Vec F S2000x1 .f32) (x2 : Vec F S1x1 .f32) (x3 : Vec F S2000x1 .i32) :
    out2_A_4 c i a1 h1 a2 h2 a3 h3 a4 h4 a5 h5 a6 h6 hc x0 x1 x2 x3 = k2_pay4 x0 x1 x2 x3 (k2_pay1 (F := F)) := by
  unfold out2_A_4
  rw [View.read_writes_eq_canon _ _ _ (cover2_A_4 c i a1 h1 a2 h2 a3 h3 a4 h4 a5 h5 a6 h6 hc x0 x1 x2 x3)]
  unfold kernelRun2_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S2000x1) hz, View.ld_unit_zero (S := S1x1) hz, View.ld_unit_zero (S := S1x1024) hz]

/-- and likewise for the counts buffer. -/
theorem piece_A_5 (c : Dev nD) (i : grid2.Coords) (a1 : Memref sig .tc .vmem S2000x1 .f32) (h1 : a1.IsWhole)
    (a2 : Memref sig .tc .vmem S2000x1 .f32) (h2 : a2.IsWhole) (a3 : Memref sig .tc .vmem S1x1 .f32) (h3 : a3.IsWhole)
    (a4 : Memref sig .tc .vmem S2000x1 .i32) (h4 : a4.IsWhole) (a5 : Memref sig .tc .vmem S1x1024 .f32) (h5 : a5.IsWhole)
    (a6 : Memref sig .tc .vmem S1x1024 .f32) (h6 : a6.IsWhole) (hc : cond2_0 i)
    (x0 x1 : Vec F S2000x1 .f32) (x2 : Vec F S1x1 .f32) (x3 : Vec F S2000x1 .i32) :
    out2_A_5 c i a1 h1 a2 h2 a3 h3 a4 h4 a5 h5 a6 h6 hc x0 x1 x2 x3 = k2_pay5 x3 (k2_pay2 (F := F)) := by
  unfold out2_A_5
  rw [View.read_writes_eq_canon _ _ _ (cover2_A_5 c i a1 h1 a2 h2 a3 h3 a4 h4 a5 h5 a6 h6 hc x0 x1 x2 x3)]
  unfold kernelRun2_A
  dsimp only
  sl_unfold_words
  rw [View.canon_cons_unit_zero (S := S1x1024) hz, View.readCov_unit_zero (S := S1x1024) _ hz]
  simp only [View.readAt_eq_ld, h4.read_unread,
    View.ld_unit_zero (S := S2000x1) hz, View.ld_unit_zero (S := S1x1024) hz]
end Pieces

section Words

/-- A 32-bit word is the word of a column number below 1024 exactly when it reads, signed, as that number. -/
theorem word_eq_iff (w : BitVec 32) (g : Fin 1024) : w = BitVec.ofNat 32 g.val ↔ w.toInt = (g.val : ℤ) := by
  have hg := g.isLt
  have hw := w.isLt
  constructor
  · rintro rfl
    rw [BitVec.toInt_eq_toNat_cond, BitVec.toNat_ofNat, Nat.mod_eq_of_lt (by omega : g.val < 2 ^ 32)]
    rw [if_pos (by omega)]
  · intro h
    apply BitVec.eq_of_toNat_eq
    rw [BitVec.toNat_ofNat, Nat.mod_eq_of_lt (by omega : g.val < 2 ^ 32)]
    rw [BitVec.toInt_eq_toNat_cond] at h
    split at h <;> omega

/-- The equality test of a word against a column number, widened and converted, is 1 where the word reads as the
    column and 0 elsewhere. -/
theorem onehot_scalar (w : BitVec 32) (g : Fin 1024) :
    (FloatOps.sitofp (F := Ideal) .f32 ((IntOp.cmpi .eq w (BitVec.ofNat 32 g.val)).setWidth 32) : EReal)
      = if w.toInt = (g.val : ℤ) then 1 else 0 := by
  show (((((IntOp.cmpi .eq w (BitVec.ofNat 32 g.val)).setWidth 32).toInt : ℤ) : ℝ) : EReal) = _
  by_cases h : w.toInt = (g.val : ℤ)
  · rw [if_pos h]
    have e : w = BitVec.ofNat 32 g.val := (word_eq_iff w g).mpr h
    have : IntOp.cmpi .eq w (BitVec.ofNat 32 g.val) = 1#1 := by
      show BitVec.ofBool (w == BitVec.ofNat 32 g.val) = 1#1
      rw [e]; simp
    rw [this]; simp
  · rw [if_neg h]
    have e : ¬ w = BitVec.ofNat 32 g.val := fun e => h ((word_eq_iff w g).mp e)
    have : IntOp.cmpi .eq w (BitVec.ofNat 32 g.val) = 0#1 := by
      show BitVec.ofBool (w == BitVec.ofNat 32 g.val) = 0#1
      rw [show (w == BitVec.ofNat 32 g.val) = false from by simpa using e]; rfl
    rw [this]; simp

end Words

section Payloads

/-- The graph-word column spread along the 1024 columns reads, at (r, g), the word of row r. -/
theorem gid_bcast_apply (v13 : Vec Ideal S2000x1 .i32) (r : Fin 2000) (g : Fin 1024) :
    broadcastTo S2000x1024 (shapeCast S2000x1 v13 shapeCasts_S2000x1_S2000x1) broadcasts_S2000x1_S2000x1024 (ix2 r g)
      = v13 (ix2 r (0 : Fin 1)) := by
  rw [shapeCast_self]
  exact broadcastTo_apply _ _ _ (ix2 r (0 : Fin 1)) (fun a => by match a with | ⟨0, _⟩ => rfl | ⟨1, _⟩ => rfl)

/-- The column counter spread along the 2000 rows reads, at (r, g), the word of g. -/
theorem iota_bcast_apply (r : Fin 2000) (g : Fin 1024) :
    broadcastTo S2000x1024 (iota .tc S1x1024 32 [1] iota_S1x1024_d1_w32) broadcasts_S1x1024_S2000x1024 (ix2 r g)
      = BitVec.ofNat 32 g.val := by
  refine (broadcastTo_apply _ _ _ (ix2 (0 : Fin 1) g) (fun a => by match a with | ⟨0, _⟩ => rfl | ⟨1, _⟩ => rfl)).trans ?_
  show BitVec.ofNat 32 (0 * 1024 + g.val) = _
  rw [Nat.zero_mul, Nat.zero_add]

/-- The one-hot matrix at (r, g): 1 where row r's graph word reads g, else 0. -/
theorem onehot_apply (v13 : Vec Ideal S2000x1 .i32) (r : Fin 2000) (g : Fin 1024) :
    k2_pay3 (F := Ideal) v13 (ix2 r g) = if (v13 (ix2 r (0 : Fin 1))).toInt = (g.val : ℤ) then (1 : EReal) else 0 := by
  unfold k2_pay3
  show FloatOps.sitofp (F := Ideal) .f32 ((IntOp.cmpi .eq
      (broadcastTo S2000x1024 (shapeCast S2000x1 v13 shapeCasts_S2000x1_S2000x1) broadcasts_S2000x1_S2000x1024 (ix2 r g))
      (broadcastTo S2000x1024 (iota .tc S1x1024 32 [1] iota_S1x1024_d1_w32) broadcasts_S1x1024_S2000x1024 (ix2 r g))).setWidth 32) = _
  rw [gid_bcast_apply, iota_bcast_apply]
  exact onehot_scalar _ g

/-- The second layer's output column (aggregate times in-normalisation plus the one bias) spread along the 1024
    columns reads, at (r, g), row r's output. -/
theorem out_bcast_apply (v3 v5 : Vec Ideal S2000x1 .f32) (v8 : Vec Ideal S1x1 .f32) (r : Fin 2000) (g : Fin 1024) :
    broadcastTo S2000x1024
        (addf (F := Ideal) (φ := .f32) (mulf (F := Ideal) (φ := .f32) (shapeCast S2000x1 v3 shapeCasts_S2000x1_S2000x1) (shapeCast S2000x1 v5 shapeCasts_S2000x1_S2000x1))
          (broadcastTo S2000x1 (shapeCast S1x1 v8 shapeCasts_S1x1_S1x1) broadcasts_S1x1_S2000x1))
        broadcasts_S2000x1_S2000x1024 (ix2 r g)
      = v3 (ix2 r (0 : Fin 1)) * v5 (ix2 r (0 : Fin 1)) + v8 (ix2 (0 : Fin 1) (0 : Fin 1)) := by
  rw [shapeCast_self, shapeCast_self, shapeCast_self]
  refine (broadcastTo_apply _ _ _ (ix2 r (0 : Fin 1)) (fun a => by match a with | ⟨0, _⟩ => rfl | ⟨1, _⟩ => rfl)).trans ?_
  show v3 (ix2 r (0 : Fin 1)) * v5 (ix2 r (0 : Fin 1)) + broadcastTo S2000x1 v8 broadcasts_S1x1_S2000x1 (ix2 r (0 : Fin 1)) = _
  refine congrArg (v3 (ix2 r (0 : Fin 1)) * v5 (ix2 r (0 : Fin 1)) + ·) ?_
  exact broadcastTo_apply _ _ _ (ix2 (0 : Fin 1) (0 : Fin 1)) (fun a => by match a with | ⟨0, _⟩ => rfl | ⟨1, _⟩ => rfl)

/-- The sum down the 2000 rows of a [2000,1024] matrix, at column g. -/
theorem colsum_apply (src : FVec Ideal S2000x1024 .f32) (g : Fin 1024) :
    multiReduction .add [0] S1024 src 0x00000000#32 reduces_S2000x1024_S1024 (.inl rfl) rfl (ix1 g)
      = ∑ r : Fin 2000, src (ix2 r g) := by
  refine (Ideal.multiReduction_add_single src 0x00000000#32 reduces_S2000x1024_S1024 (.inl rfl) rfl (ix1 g)).trans ?_
  show ∑ r : Fin 2000, src (reduces_S2000x1024_S1024.lift (ix1 g) r) = _
  refine Finset.sum_congr rfl fun r _ => congrArg src ?_
  funext a
  match a with
  | ⟨0, _⟩ => rfl
  | ⟨1, _⟩ => rfl

/-- The [1024] column sums laid out as a [1,1024] row read, at (0, g), entry g. -/
theorem row_of_cols_apply (v : FVec Ideal S1024 .f32) (g : Fin 1024) :
    shapeCast S1x1024 v shapeCasts_S1024_S1x1024 (ix2 (0 : Fin 1) g) = v (ix1 g) := by
  refine shapeCast_apply _ _ (ix2 (0 : Fin 1) g) (ix1 g) ?_
  rw [Shape.rowMajor_val_one, Shape.rowMajor_val_two]
  show g.val = 0 * 1024 + g.val
  omega

/-- The new counts at column g: the old count plus the number of rows of the block whose graph word reads g. -/
theorem counts_pay_apply (v13 : Vec Ideal S2000x1 .i32) (v28 : Vec Ideal S1x1024 .f32) (g : Fin 1024) :
    k2_pay5 (F := Ideal) v13 v28 (ix2 (0 : Fin 1) g)
      = v28 (ix2 (0 : Fin 1) g)
        + ∑ r : Fin 2000, if (v13 (ix2 r (0 : Fin 1))).toInt = (g.val : ℤ) then (1 : EReal) else 0 := by
  unfold k2_pay5
  show shapeCast S1x1024 v28 shapeCasts_S1x1024_S1x1024 (ix2 (0 : Fin 1) g)
      + shapeCast S1x1024 (multiReduction .add [0] S1024 (k2_pay3 (F := Ideal) v13) 0x00000000#32 reduces_S2000x1024_S1024 (.inl rfl) rfl)
          shapeCasts_S1024_S1x1024 (ix2 (0 : Fin 1) g) = _
  rw [shapeCast_self]
  refine congrArg (v28 (ix2 (0 : Fin 1) g) + ·) ?_
  refine (row_of_cols_apply _ g).trans ((colsum_apply _ g).trans ?_)
  exact Finset.sum_congr rfl fun r _ => onehot_apply v13 r g

/-- The new sums at column g: the old sum plus the outputs of the block's rows whose graph word reads g. -/
theorem sums_pay_apply (v3 v5 : Vec Ideal S2000x1 .f32) (v8 : Vec Ideal S1x1 .f32) (v13 : Vec Ideal S2000x1 .i32)
    (v20 : Vec Ideal S1x1024 .f32) (g : Fin 1024) :
    k2_pay4 (F := Ideal) v3 v5 v8 v13 v20 (ix2 (0 : Fin 1) g)
      = v20 (ix2 (0 : Fin 1) g)
        + ∑ r : Fin 2000, if (v13 (ix2 r (0 : Fin 1))).toInt = (g.val : ℤ)
            then v3 (ix2 r (0 : Fin 1)) * v5 (ix2 r (0 : Fin 1)) + v8 (ix2 (0 : Fin 1) (0 : Fin 1)) else 0 := by
  unfold k2_pay4
  show shapeCast S1x1024 v20 shapeCasts_S1x1024_S1x1024 (ix2 (0 : Fin 1) g)
      + shapeCast S1x1024 (multiReduction .add [0] S1024
          (mulf (k2_pay3 (F := Ideal) v13)
            (broadcastTo S2000x1024
              (addf (mulf (shapeCast S2000x1 v3 shapeCasts_S2000x1_S2000x1) (shapeCast S2000x1 v5 shapeCasts_S2000x1_S2000x1))
                (broadcastTo S2000x1 (shapeCast S1x1 v8 shapeCasts_S1x1_S1x1) broadcasts_S1x1_S2000x1))
              broadcasts_S2000x1_S2000x1024))
          0x00000000#32 reduces_S2000x1024_S1024 (.inl rfl) rfl)
          shapeCasts_S1024_S1x1024 (ix2 (0 : Fin 1) g) = _
  rw [shapeCast_self]
  refine congrArg (v20 (ix2 (0 : Fin 1) g) + ·) ?_
  refine (row_of_cols_apply _ g).trans ((colsum_apply _ g).trans ?_)
  refine Finset.sum_congr rfl fun r _ => ?_
  show k2_pay3 (F := Ideal) v13 (ix2 r g) * _ = _
  rw [onehot_apply, out_bcast_apply, ite_mul, one_mul, zero_mul]

end Payloads

section Blocks

/-- The grid has 100 points. -/
theorem grid_len : cfg2.N = 100 := N_2

/-- Where each window's block sits at point t: the three per-node windows at block row t, the bias and the two
    results at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The input blocks at point t, each at its literal type. -/
abbrev aggBlk (c : Dev nD) (t : Fin cfg2.N) : Vec Ideal S2000x1 .f32 := iblk2 V c 0 t
abbrev ninBlk (c : Dev nD) (t : Fin cfg2.N) : Vec Ideal S2000x1 .f32 := iblk2 V c 1 t
abbrev biasBlk (c : Dev nD) (t : Fin cfg2.N) : Vec Ideal S1x1 .f32 := iblk2 V c 2 t
abbrev gidBlk (c : Dev nD) (t : Fin cfg2.N) : Vec Ideal S2000x1 .i32 := iblk2 V c 3 t

/-- Row r of block t is node 2000 t + r. -/
def node (t : Fin cfg2.N) (r : Fin 2000) : Fin 200000 :=
  ⟨t.val * 2000 + r.val, by have h1 := t.isLt; have h2 : cfg2.N = 100 := N_2; have h3 := r.isLt; omega⟩

/-- Each per-node block at point t reads its array at the block's nodes; the bias block reads the one bias. -/
theorem aggBlk_apply (c : Dev nD) (t : Fin cfg2.N) (r : Fin 2000) :
    aggBlk V c t (ix2 r (0 : Fin 1)) = agg2Arr V c (ix2 (node t r) (0 : Fin 1)) := by
  obtain ⟨e0, e1, -⟩ := idx_facts t
  show agg2Arr V c (((cfg2.win 0).blk t).view.emb (ix2 r (0 : Fin 1))) = _
  refine congrArg (agg2Arr V c) (funext fun a => Fin.ext ?_)
  match a with
  | ⟨0, _⟩ => show win2_0.index t (0 : Fin 2) * 2000 + 1 * r.val = t.val * 2000 + r.val; rw [e0]; omega
  | ⟨1, _⟩ => show win2_0.index t (1 : Fin 2) * 1 + 1 * 0 = 0; rw [e1]

theorem ninBlk_apply (c : Dev nD) (t : Fin cfg2.N) (r : Fin 2000) :
    ninBlk V c t (ix2 r (0 : Fin 1)) = nInArr V c (ix2 (node t r) (0 : Fin 1)) := by
  obtain ⟨-, -, e0, e1, -⟩ := idx_facts t
  show nInArr V c (((cfg2.win 1).blk t).view.emb (ix2 r (0 : Fin 1))) = _
  refine congrArg (nInArr V c) (funext fun a => Fin.ext ?_)
  match a with
  | ⟨0, _⟩ => show win2_1.index t (0 : Fin 2) * 2000 + 1 * r.val = t.val * 2000 + r.val; rw [e0]; omega
  | ⟨1, _⟩ => show win2_1.index t (1 : Fin 2) * 1 + 1 * 0 = 0; rw [e1]

theorem biasBlk_apply (c : Dev nD) (t : Fin cfg2.N) :
    biasBlk V c t (ix2 (0 : Fin 1) (0 : Fin 1)) = b2Arr V c (ix2 (0 : Fin 1) (0 : Fin 1)) := by
  obtain ⟨-, -, -, -, e0, e1, -⟩ := idx_facts t
  show b2Arr V c (((cfg2.win 2).blk t).view.emb (ix2 (0 : Fin 1) (0 : Fin 1))) = _
  refine congrArg (b2Arr V c) (funext fun a => Fin.ext ?_)
  match a with
  | ⟨0, _⟩ => show win2_2.index t (0 : Fin 2) * 1 + 1 * 0 = 0; rw [e0]
  | ⟨1, _⟩ => show win2_2.index t (1 : Fin 2) * 1 + 1 * 0 = 0; rw [e1]

theorem gidBlk_apply (c : Dev nD) (t : Fin cfg2.N) (r : Fin 2000) :
    gidBlk V c t (ix2 r (0 : Fin 1)) = gidArr V c (ix2 (node t r) (0 : Fin 1)) := by
  obtain ⟨-, -, -, -, -, -, e0, e1, -⟩ := idx_facts t
  show gidArr V c (((cfg2.win 3).blk t).view.emb (ix2 r (0 : Fin 1))) = _
  refine congrArg (gidArr V c) (funext fun a => Fin.ext ?_)
  match a with
  | ⟨0, _⟩ => show win2_3.index t (0 : Fin 2) * 2000 + 1 * r.val = t.val * 2000 + r.val; rw [e0]; omega
  | ⟨1, _⟩ => show win2_3.index t (1 : Fin 2) * 1 + 1 * 0 = 0; rw [e1]

end Blocks

section Accumulation

/-- What node m adds to column g of the sums, and of the counts. -/
def sumTerm (c : Dev nD) (g : Fin 1024) (m : Fin 200000) : EReal :=
  if (gidArr V c (ix2 m (0 : Fin 1))).toInt = (g.val : ℤ)
  then agg2Arr V c (ix2 m (0 : Fin 1)) * nInArr V c (ix2 m (0 : Fin 1)) + b2Arr V c (ix2 (0 : Fin 1) (0 : Fin 1))
  else 0
def cntTerm (c : Dev nD) (g : Fin 1024) (m : Fin 200000) : EReal :=
  if (gidArr V c (ix2 m (0 : Fin 1))).toInt = (g.val : ℤ) then (1 : EReal) else 0

/-- What point s adds: the 2000 nodes of its block (nothing beyond the grid). -/
def sumPt (c : Dev nD) (g : Fin 1024) (s : ℕ) : EReal :=
  if h : s < cfg2.N then ∑ r : Fin 2000, sumTerm V c g (node ⟨s, h⟩ r) else 0
def cntPt (c : Dev nD) (g : Fin 1024) (s : ℕ) : EReal :=
  if h : s < cfg2.N then ∑ r : Fin 2000, cntTerm V c g (node ⟨s, h⟩ r) else 0

/-- The zero splats read 0. -/
theorem zero_splat4 (g : Fin 1024) : k2_pay1 (F := Ideal) (ix2 (0 : Fin 1) g) = 0 := by
  unfold k2_pay1
  show Ideal.ofBits .f32 0x00000000#32 = 0
  exact Ideal.ofBits_zero_f32
theorem zero_splat5 (g : Fin 1024) : k2_pay2 (F := Ideal) (ix2 (0 : Fin 1) g) = 0 := by
  unfold k2_pay2
  show Ideal.ofBits .f32 0x00000000#32 = 0
  exact Ideal.ofBits_zero_f32

/-- One point's update of the sums over any running contents: the contents plus the point's share. -/
theorem sums_step (c : Dev nD) (t : Fin cfg2.N) (acc : Vec Ideal S1x1024 .f32) (g : Fin 1024) :
    k2_pay4 (F := Ideal) (aggBlk V c t) (ninBlk V c t) (biasBlk V c t) (gidBlk V c t) acc (ix2 (0 : Fin 1) g)
      = acc (ix2 (0 : Fin 1) g) + sumPt V c g t.val := by
  refine (sums_pay_apply (aggBlk V c t) (ninBlk V c t) (biasBlk V c t) (gidBlk V c t) acc g).trans ?_
  refine congrArg (acc (ix2 (0 : Fin 1) g) + ·) ?_
  unfold sumPt
  rw [dif_pos t.isLt]
  refine Finset.sum_congr rfl fun r _ => ?_
  unfold sumTerm
  rw [aggBlk_apply, ninBlk_apply, biasBlk_apply, gidBlk_apply]

/-- … and of the counts. -/
theorem counts_step (c : Dev nD) (t : Fin cfg2.N) (acc : Vec Ideal S1x1024 .f32) (g : Fin 1024) :
    k2_pay5 (F := Ideal) (gidBlk V c t) acc (ix2 (0 : Fin 1) g)
      = acc (ix2 (0 : Fin 1) g) + cntPt V c g t.val := by
  refine (counts_pay_apply (gidBlk V c t) acc g).trans ?_
  refine congrArg (acc (ix2 (0 : Fin 1) g) + ·) ?_
  unfold cntPt
  rw [dif_pos t.isLt]
  refine Finset.sum_congr rfl fun r _ => ?_
  unfold cntTerm
  rw [gidBlk_apply]

/-- At a resetting point the sums buffer ends at the point's own share. -/
theorem sums_at_A (c : Dev nD) (g : Fin 1024) (t : Fin cfg2.N) (h0 : t.val % 100 = 0) :
    (outsAt2 V c t.val t.isLt).1 (ix2 (0 : Fin 1) g) = sumPt V c g t.val := by
  rw [outsAt2_A V c t h0]
  dsimp only
  refine (congrFun (piece_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (aggBlk V c t) (ninBlk V c t) (biasBlk V c t) (gidBlk V c t)) (ix2 (0 : Fin 1) g)).trans ?_
  refine (sums_step V c t (k2_pay1 (F := Ideal)) g).trans ?_
  rw [zero_splat4, zero_add]

/-- At any other point it ends at what the point before left plus the point's share. -/
theorem sums_at_B (c : Dev nD) (g : Fin 1024) (t : Fin cfg2.N) (h0 : ¬t.val % 100 = 0) :
    (outsAt2 V c t.val t.isLt).1 (ix2 (0 : Fin 1) g)
      = (outsAt2 V c (t.val - 1) (Nat.lt_of_le_of_lt (Nat.sub_le _ _) t.isLt)).1 (ix2 (0 : Fin 1) g) + sumPt V c g t.val := by
  rw [outsAt2_B V c t h0]
  dsimp only
  refine (congrFun (piece_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (aggBlk V c t) (ninBlk V c t) (biasBlk V c t) (gidBlk V c t)
    (outsAt2 V c (t.val - 1) (Nat.lt_of_le_of_lt (Nat.sub_le _ _) t.isLt)).1 (outsAt2 V c (t.val - 1) (Nat.lt_of_le_of_lt (Nat.sub_le _ _) t.isLt)).2) (ix2 (0 : Fin 1) g)).trans ?_
  exact sums_step V c t (outsAt2 V c (t.val - 1) (Nat.lt_of_le_of_lt (Nat.sub_le _ _) t.isLt)).1 g

/-- The same two facts for the counts buffer. -/
theorem counts_at_A (c : Dev nD) (g : Fin 1024) (t : Fin cfg2.N) (h0 : t.val % 100 = 0) :
    (outsAt2 V c t.val t.isLt).2 (ix2 (0 : Fin 1) g) = cntPt V c g t.val := by
  rw [outsAt2_A V c t h0]
  dsimp only
  refine (congrFun (piece_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (aggBlk V c t) (ninBlk V c t) (biasBlk V c t) (gidBlk V c t)) (ix2 (0 : Fin 1) g)).trans ?_
  refine (counts_step V c t (k2_pay2 (F := Ideal)) g).trans ?_
  rw [zero_splat5, zero_add]

theorem counts_at_B (c : Dev nD) (g : Fin 1024) (t : Fin cfg2.N) (h0 : ¬t.val % 100 = 0) :
    (outsAt2 V c t.val t.isLt).2 (ix2 (0 : Fin 1) g)
      = (outsAt2 V c (t.val - 1) (Nat.lt_of_le_of_lt (Nat.sub_le _ _) t.isLt)).2 (ix2 (0 : Fin 1) g) + cntPt V c g t.val := by
  rw [outsAt2_B V c t h0]
  dsimp only
  refine (congrFun (piece_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (aggBlk V c t) (ninBlk V c t) (biasBlk V c t) (gidBlk V c t)
    (outsAt2 V c (t.val - 1) (Nat.lt_of_le_of_lt (Nat.sub_le _ _) t.isLt)).1 (outsAt2 V c (t.val - 1) (Nat.lt_of_le_of_lt (Nat.sub_le _ _) t.isLt)).2) (ix2 (0 : Fin 1) g)).trans ?_
  exact counts_step V c t (outsAt2 V c (t.val - 1) (Nat.lt_of_le_of_lt (Nat.sub_le _ _) t.isLt)).2 g

/-- THE INVARIANT: after point n the sums buffer holds, at column g, the shares of points 0 … n. -/
theorem sums_inv (c : Dev nD) (g : Fin 1024) : ∀ (n : ℕ) (hn : n < cfg2.N),
    (outsAt2 V c n hn).1 (ix2 (0 : Fin 1) g) = ∑ s ∈ Finset.range (n + 1), sumPt V c g s
  | 0, hn => by
    rw [Finset.sum_range_one]
    exact sums_at_A V c g ⟨0, hn⟩ rfl
  | n + 1, hn => by
    have hN : cfg2.N = 100 := N_2
    have hB : ¬(⟨n + 1, hn⟩ : Fin cfg2.N).val % 100 = 0 := by dsimp only; omega
    rw [Finset.sum_range_succ, ← sums_inv c g n (Nat.lt_of_succ_lt hn)]
    exact sums_at_B V c g ⟨n + 1, hn⟩ hB

/-- … and the counts buffer their counts. -/
theorem counts_inv (c : Dev nD) (g : Fin 1024) : ∀ (n : ℕ) (hn : n < cfg2.N),
    (outsAt2 V c n hn).2 (ix2 (0 : Fin 1) g) = ∑ s ∈ Finset.range (n + 1), cntPt V c g s
  | 0, hn => by
    rw [Finset.sum_range_one]
    exact counts_at_A V c g ⟨0, hn⟩ rfl
  | n + 1, hn => by
    have hN : cfg2.N = 100 := N_2
    have hB : ¬(⟨n + 1, hn⟩ : Fin cfg2.N).val % 100 = 0 := by dsimp only; omega
    rw [Finset.sum_range_succ, ← counts_inv c g n (Nat.lt_of_succ_lt hn)]
    exact counts_at_B V c g ⟨n + 1, hn⟩ hB

end Accumulation

section Result

/-- What the two result buffers hold after point n, as contents of the result arrays. -/
abbrev sumsRes (c : Dev nD) (n : ℕ) (hn : n < cfg2.N) : Buf (Elt Ideal) ((c : Thread nD τ).loc main_v39_0) :=
  (outsAt2 V c n hn).1
abbrev countsRes (c : Dev nD) (n : ℕ) (hn : n < cfg2.N) : Buf (Elt Ideal) ((c : Thread nD τ).loc main_v39_1) :=
  (outsAt2 V c n hn).2

/-- The one write-back of the sums, after the last point (n = 99), writes the buffer whole: its block is the array. -/
theorem sums_flushed (c : Dev nD) (n : ℕ) (hn : n < cfg2.N) (h99 : n = 99) (t : Fin cfg2.N)
    (hf : (cfg2.win 4).flush t = true) :
    (dat2 (F := Ideal) V c).flushed 4 t = ((cfg2.win 4).blk t).view.read (Elt Ideal) (sumsRes V c n hn) := by
  have hN : cfg2.N = 100 := N_2
  have ht : n = t.val := by have := (flush2_4 t).mp hf; have := t.isLt; omega
  subst ht
  show (cfg2.win 4).cut (grid2.coords t) ((dat2 (F := Ideal) V c).after 4 t) = _
  rw [after2_4]
  obtain ⟨-, -, -, -, -, -, -, -, e0, e1, -⟩ := idx_facts t
  have hz' : (fun a => win2_4.index t a * main_v39_0.ty.shape.size a) = fun _ => 0 := funext fun a => by
    match a with
    | ⟨0, _⟩ => show win2_4.index t (0 : Fin 2) * 1 = 0; rw [e0]
    | ⟨1, _⟩ => show win2_4.index t (1 : Fin 2) * 1024 = 0; rw [e1]
  exact (Memref.read_access_unit_zero (Elt Ideal) main_v39_0 hz' (fun a => by rw [congrFun hz' a]; simp) (sumsRes V c t.val t.isLt)).symm

/-- Likewise the counts. -/
theorem counts_flushed (c : Dev nD) (n : ℕ) (hn : n < cfg2.N) (h99 : n = 99) (t : Fin cfg2.N)
    (hf : (cfg2.win 5).flush t = true) :
    (dat2 (F := Ideal) V c).flushed 5 t = ((cfg2.win 5).blk t).view.read (Elt Ideal) (countsRes V c n hn) := by
  have hN : cfg2.N = 100 := N_2
  have ht : n = t.val := by have := (flush2_5 t).mp hf; have := t.isLt; omega
  subst ht
  show (cfg2.win 5).cut (grid2.coords t) ((dat2 (F := Ideal) V c).after 5 t) = _
  rw [after2_5]
  obtain ⟨-, -, -, -, -, -, -, -, -, -, e0, e1⟩ := idx_facts t
  have hz' : (fun a => win2_5.index t a * main_v39_1.ty.shape.size a) = fun _ => 0 := funext fun a => by
    match a with
    | ⟨0, _⟩ => show win2_5.index t (0 : Fin 2) * 1 = 0; rw [e0]
    | ⟨1, _⟩ => show win2_5.index t (1 : Fin 2) * 1024 = 0; rw [e1]
  exact (Memref.read_access_unit_zero (Elt Ideal) main_v39_1 hz' (fun a => by rw [congrFun hz' a]; simp) (countsRes V c t.val t.isLt)).symm

/-- The extents of the result windows' one block. -/
theorem out_sizes : ∀ t : Fin cfg2.N,
    win2_4.xsize (grid2.coords t) (0 : Fin 2) = 1 ∧ win2_4.xsize (grid2.coords t) (1 : Fin 2) = 1024
    ∧ win2_5.xsize (grid2.coords t) (0 : Fin 2) = 1 ∧ win2_5.xsize (grid2.coords t) (1 : Fin 2) = 1024 :=
  (by decide +kernel : ∀ t : Fin grid2.N, _)

/-- So the sums array ends holding what the buffer held after the last point: that one block covers it. -/
theorem sums_final (c : Dev nD) (n : ℕ) (hn : n < cfg2.N) (h99 : n = 99) :
    (dat2 (F := Ideal) V c).arrAt 4 cfg2.N = sumsRes V c n hn :=
  (dat2 (F := Ideal) V c).arrAt_eq_of_cover 4 (sumsRes V c n hn) (sums_flushed V c n hn h99) fun i =>
    ⟨⟨n, hn⟩, (flush2_4 ⟨n, hn⟩).mpr (by dsimp only; omega), by
      show i ∈ ((View.whole main_v39_0).slice (win2_4.rect ⟨n, hn⟩)).set
      rw [View.set_slice_whole, Rect.mem_set_unit]
      intro a
      obtain ⟨-, -, -, -, -, -, -, -, e0, e1, -⟩ := idx_facts ⟨n, hn⟩
      obtain ⟨s0, s1, -⟩ := out_sizes ⟨n, hn⟩
      have h0 : (i 0 : Nat) < 1 := (i 0).isLt
      have h1 : (i 1 : Nat) < 1024 := (i 1).isLt
      match a with
      | ⟨0, _⟩ =>
        show win2_4.index ⟨n, hn⟩ 0 * win2_4.size 0 ≤ (i 0 : Nat) ∧ (i 0 : Nat) < win2_4.index ⟨n, hn⟩ 0 * win2_4.size 0 + win2_4.xsize (grid2.coords ⟨n, hn⟩) 0
        rw [e0, s0]; omega
      | ⟨1, _⟩ =>
        show win2_4.index ⟨n, hn⟩ 1 * win2_4.size 1 ≤ (i 1 : Nat) ∧ (i 1 : Nat) < win2_4.index ⟨n, hn⟩ 1 * win2_4.size 1 + win2_4.xsize (grid2.coords ⟨n, hn⟩) 1
        rw [e1, s1]; omega⟩

/-- Likewise the counts array. -/
theorem counts_final (c : Dev nD) (n : ℕ) (hn : n < cfg2.N) (h99 : n = 99) :
    (dat2 (F := Ideal) V c).arrAt 5 cfg2.N = countsRes V c n hn :=
  (dat2 (F := Ideal) V c).arrAt_eq_of_cover 5 (countsRes V c n hn) (counts_flushed V c n hn h99) fun i =>
    ⟨⟨n, hn⟩, (flush2_5 ⟨n, hn⟩).mpr (by dsimp only; omega), by
      show i ∈ ((View.whole main_v39_1).slice (win2_5.rect ⟨n, hn⟩)).set
      rw [View.set_slice_whole, Rect.mem_set_unit]
      intro a
      obtain ⟨-, -, -, -, -, -, -, -, -, -, e0, e1⟩ := idx_facts ⟨n, hn⟩
      obtain ⟨-, -, s0, s1⟩ := out_sizes ⟨n, hn⟩
      have h0 : (i 0 : Nat) < 1 := (i 0).isLt
      have h1 : (i 1 : Nat) < 1024 := (i 1).isLt
      match a with
      | ⟨0, _⟩ =>
        show win2_5.index ⟨n, hn⟩ 0 * win2_5.size 0 ≤ (i 0 : Nat) ∧ (i 0 : Nat) < win2_5.index ⟨n, hn⟩ 0 * win2_5.size 0 + win2_5.xsize (grid2.coords ⟨n, hn⟩) 0
        rw [e0, s0]; omega
      | ⟨1, _⟩ =>
        show win2_5.index ⟨n, hn⟩ 1 * win2_5.size 1 ≤ (i 1 : Nat) ∧ (i 1 : Nat) < win2_5.index ⟨n, hn⟩ 1 * win2_5.size 1 + win2_5.xsize (grid2.coords ⟨n, hn⟩) 1
        rw [e1, s1]; omega⟩

/-- The shares of the 100 points, each over the 2000 nodes of its block, make up the sum over all 200000 nodes. -/
theorem sum_points (f : Fin 200000 → EReal) (pt : ℕ → EReal)
    (hpt : ∀ (s : ℕ) (h : s < cfg2.N), pt s = ∑ r : Fin 2000, f (node ⟨s, h⟩ r)) :
    ∑ s ∈ Finset.range 100, pt s = ∑ m : Fin 200000, f m := by
  have hN : cfg2.N = 100 := N_2
  refine (Finset.sum_range pt).trans ?_
  refine Eq.trans ?_ (Cert.Spec.sum_blocks 100 2000 f)
  exact Finset.sum_congr rfl fun t _ => hpt t.val (by have := t.isLt; omega)

end Result

/-- After the readout call, column g of its first result holds the sum, over the nodes whose graph word reads g, of
    the second layer's output (the aggregate times the in-normalisation plus the bias). -/
theorem sums_entry (c : Dev nD) (g : Fin 1024) :
    sumsArr V c (ix2 (0 : Fin 1) g)
      = ∑ m : Fin 200000,
          if (gidArr V c (ix2 m (0 : Fin 1))).toInt = (g.val : ℤ)
          then agg2Arr V c (ix2 m (0 : Fin 1)) * nInArr V c (ix2 m (0 : Fin 1)) + b2Arr V c (ix2 (0 : Fin 1) (0 : Fin 1))
          else 0 := by
  obtain ⟨n, hn, h99⟩ : ∃ n : ℕ, ∃ _ : n < cfg2.N, n = 99 := ⟨99, by rw [show cfg2.N = 100 from N_2]; decide, rfl⟩
  refine (congrFun (sums_final V c n hn h99) (ix2 (0 : Fin 1) g)).trans ?_
  refine (sums_inv V c g n hn).trans ?_
  rw [h99]
  exact sum_points (sumTerm V c g) (sumPt V c g) (fun s h => dif_pos h)

/-- … and column g of its second result their number. -/
theorem counts_entry (c : Dev nD) (g : Fin 1024) :
    countsArr V c (ix2 (0 : Fin 1) g)
      = ∑ m : Fin 200000, if (gidArr V c (ix2 m (0 : Fin 1))).toInt = (g.val : ℤ) then (1 : EReal) else 0 := by
  obtain ⟨n, hn, h99⟩ : ∃ n : ℕ, ∃ _ : n < cfg2.N, n = 99 := ⟨99, by rw [show cfg2.N = 100 from N_2]; decide, rfl⟩
  refine (congrFun (counts_final V c n hn h99) (ix2 (0 : Fin 1) g)).trans ?_
  refine (counts_inv V c g n hn).trans ?_
  rw [h99]
  exact sum_points (cntTerm V c g) (cntPt V c g) (fun s h => dif_pos h)

end Cert.KernelIdeal.Reg2

end
-- ==== Proof.KHost.lean ====
/-
  The kernel program's run read call by call.

  Between its three grid-tiled calls the program runs plain array operations: it cuts the source and destination
  words out of the edge table, counts degrees by scatter-adding ones, gathers per-node values at the (wrapped,
  clamped) source words and scatter-adds them at the destination words, lays vectors out as columns or rows, and at
  the end divides the per-graph sums by the per-graph counts raised to at least 1. Each buffer after a stretch is its
  operation applied to the buffers before it; a buffer nothing writes keeps its contents across a stretch and across
  a call that does not list it among its arrays, and an input array of a call leaves the call as it entered. Read at
  an index, every buffer on the way is the function of the seven argument arrays that Spec.lean names, down to the
  result: at graph g it is the readout with the first layer's scalar summed before the weight row is applied.
-/
import proofs.«430448_j86981677679168_2_alg».proof.Proof.Gen.KernelIdeal.Frame
import proofs.«430448_j86981677679168_2_alg».proof.Proof.Spec
import proofs.«430448_j86981677679168_2_alg».proof.Proof.LibScatterRows
import proofs.«430448_j86981677679168_2_alg».proof.Proof.LibRowGather
import proofs.«430448_j86981677679168_2_alg».proof.Proof.LibColumn
import proofs.«430448_j86981677679168_2_alg».proof.Proof.KReg0
import proofs.«430448_j86981677679168_2_alg».proof.Proof.KReg1
import proofs.«430448_j86981677679168_2_alg».proof.Proof.KReg2
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KHost

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The edge table as launched. -/
abbrev edges (c : Dev nD) : S2x6400000.Idx → BitVec 32 := m ((c : Thread nD τ).loc main_arg1)

/-- The other six arguments as launched, each at its literal type. -/
abbrev feat (c : Dev nD) : S200000x1.Idx → EReal := m ((c : Thread nD τ).loc main_arg0)
abbrev gids (c : Dev nD) : S200000.Idx → BitVec 32 := m ((c : Thread nD τ).loc main_arg2)
abbrev wt1 (c : Dev nD) : S1x32.Idx → EReal := m ((c : Thread nD τ).loc main_arg3)
abbrev bs1 (c : Dev nD) : S32.Idx → EReal := m ((c : Thread nD τ).loc main_arg4)
abbrev wt2 (c : Dev nD) : S32x1.Idx → EReal := m ((c : Thread nD τ).loc main_arg5)
abbrev bs2 (c : Dev nD) : S1.Idx → EReal := m ((c : Thread nD τ).loc main_arg6)

/-- The word 0x3F800000 denotes 1. -/
theorem ofBits_one : Ideal.ofBits .f32 0x3F800000#32 = 1 := by
  simp [Ideal.ofBits, Ideal.ieee]
  rw [← EReal.coe_mul]
  norm_num

/-! ## Small layout reads -/

/-- Row k of a two-row table, cut out as a one-row table and flattened, at position e. -/
theorem row_of_table {α : Type} {n : ℕ} (x : (⟨2, ![2, n]⟩ : Shape).Idx → α) (k : Fin 2)
    (hs : (⟨2, ![2, n]⟩ : Shape).Slices ![k.val, 0] ⟨2, ![1, n]⟩) (hc : (⟨2, ![1, n]⟩ : Shape).ShapeCasts ⟨1, ![n]⟩) (e : Fin n) :
    shapeCast ⟨1, ![n]⟩ (extractStridedSlice ⟨2, ![1, n]⟩ ![k.val, 0] x hs) hc (ix1 e) = x (ix2 k e) := by
  rw [shapeCast_apply _ hc (ix1 e) (ix2 (0 : Fin 1) e) (by
    rw [Shape.rowMajor_val_two, Shape.rowMajor_val_one]; show 0 * n + e.val = e.val; omega)]
  exact extractStridedSlice_apply _ x hs _ _ (fun a => match a with
    | ⟨0, _⟩ => by show k.val = k.val + 0; omega
    | ⟨1, _⟩ => by show e.val = 0 + e.val; omega)

/-- A vector laid out as a one-column table, at row e. -/
theorem col_of_vec {α : Type} {n : ℕ} (x : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h x (ix2 e u) = x (ix1 e) :=
  broadcastInDim_apply _ h x _ _ (fun a => match a with
    | ⟨0, _⟩ => by
      show e.val = if n = 1 then 0 else e.val
      split
      · have := e.isLt; omega
      · rfl)

/-- A scalar spread over any shape. -/
theorem splat_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x _ _ (fun a => a.elim0)

/-! ## Before the first call: source and destination words, and the two degree arrays -/

theorem W1_v1 (c : Dev nD) :
    (W1 m ρ c (Proc.devRef .tc main_v1) : S6400000.Idx → BitVec 32)
      = shapeCast S6400000 (extractStridedSlice S1x6400000 ![0, 0] (edges m c) slices_S2x6400000_S1x6400000_0_0) shapeCasts_S1x6400000_S6400000 := by
  show StableHlo.after hostOps0 (W0 m ρ c) (Proc.devRef .tc main_v1) = _
  after_results <;> rfl

theorem W1_v3 (c : Dev nD) :
    (W1 m ρ c (Proc.devRef .tc main_v3) : S6400000.Idx → BitVec 32)
      = shapeCast S6400000 (extractStridedSlice S1x6400000 ![1, 0] (edges m c) slices_S2x6400000_S1x6400000_1_0) shapeCasts_S1x6400000_S6400000 := by
  show StableHlo.after hostOps0 (W0 m ρ c) (Proc.devRef .tc main_v3) = _
  after_results <;> rfl

/-- The source word of edge e is row 0 of the edge table at column e, the destination word row 1. -/
theorem srcWord (c : Dev nD) (e : Fin 6400000) :
    (W1 m ρ c (Proc.devRef .tc main_v1) : S6400000.Idx → BitVec 32) (ix1 e) = Cert.Spec.swOf (edges m c) e := by
  rw [W1_v1]
  exact row_of_table (edges m c) 0 _ _ e

theorem dstWord (c : Dev nD) (e : Fin 6400000) :
    (W1 m ρ c (Proc.devRef .tc main_v3) : S6400000.Idx → BitVec 32) (ix1 e) = Cert.Spec.dwOf (edges m c) e := by
  rw [W1_v3]
  exact row_of_table (edges m c) 1 _ _ e

/-- The out-degree array the first call reads: the scatter of ones over the source words, as a column. -/
theorem W1_v8 (c : Dev nD) :
    (W1 m ρ c (Proc.devRef .tc main_v8) : S200000x1.Idx → EReal)
      = shapeCast S200000x1 (Host.scatterAdd scatter_S200000_S6400000x1_S6400000_n_0_0_1
          (broadcastInDim S200000 ![] bcast_S_S200000 (constant (F := Ideal) S_ .f32 0x00000000#32))
          (broadcastInDim S6400000x1 ![0] bcast_S6400000_S6400000x1_0
            (shapeCast S6400000 (extractStridedSlice S1x6400000 ![0, 0] (edges m c) slices_S2x6400000_S1x6400000_0_0) shapeCasts_S1x6400000_S6400000))
          (broadcastInDim S6400000 ![] bcast_S_S6400000 (constant (F := Ideal) S_ .f32 0x3F800000#32))) shapeCasts_S200000_S200000x1 := by
  show StableHlo.after hostOps0 (W0 m ρ c) (Proc.devRef .tc main_v8) = _
  after_results <;> rfl

/-- The in-degree array: the same over the destination words. -/
theorem W1_v12 (c : Dev nD) :
    (W1 m ρ c (Proc.devRef .tc main_v12) : S200000x1.Idx → EReal)
      = shapeCast S200000x1 (Host.scatterAdd scatter_S200000_S6400000x1_S6400000_n_0_0_1
          (broadcastInDim S200000 ![] bcast_S_S200000 (constant (F := Ideal) S_ .f32 0x00000000#32))
          (broadcastInDim S6400000x1 ![0] bcast_S6400000_S6400000x1_0
            (shapeCast S6400000 (extractStridedSlice S1x6400000 ![1, 0] (edges m c) slices_S2x6400000_S1x6400000_1_0) shapeCasts_S1x6400000_S6400000))
          (broadcastInDim S6400000 ![] bcast_S_S6400000 (constant (F := Ideal) S_ .f32 0x3F800000#32))) shapeCasts_S200000_S200000x1 := by
  show StableHlo.after hostOps0 (W0 m ρ c) (Proc.devRef .tc main_v12) = _
  after_results <;> rfl

/-- A vector scatter-add at node n: the operand there plus the updates of the positions whose index word reads n. -/
theorem scatVec_entry (x0 : FVec Ideal S200000 .f32) (idx : IVec S6400000x1 32) (upd : FVec Ideal S6400000 .f32) (n : Fin 200000) :
    Host.scatterAdd (F := Ideal) scatter_S200000_S6400000x1_S6400000_n_0_0_1 x0 idx upd (ix1 n)
      = x0 (ix1 n) + ∑ e : Fin 6400000, if (idx (ix2 e (0 : Fin 1))).toInt = (n.val : ℤ) then upd (ix1 e) else 0 :=
  ScatterRows.scatterRows1_apply _ rfl rfl rfl rfl x0 idx upd n

/-- A scatter of ones over a row of the edge table counts, at node n, the edges whose word reads n. -/
theorem count_entry (x : S2x6400000.Idx → BitVec 32) (k : Fin 2)
    (hs : S2x6400000.Slices ![k.val, 0] S1x6400000) (n : Fin 200000) (u : Fin 1) :
    shapeCast S200000x1 (Host.scatterAdd (F := Ideal) scatter_S200000_S6400000x1_S6400000_n_0_0_1
          (broadcastInDim S200000 ![] bcast_S_S200000 (constant (F := Ideal) S_ .f32 0x00000000#32))
          (broadcastInDim S6400000x1 ![0] bcast_S6400000_S6400000x1_0
            (shapeCast S6400000 (extractStridedSlice S1x6400000 ![k.val, 0] x hs) shapeCasts_S1x6400000_S6400000))
          (broadcastInDim S6400000 ![] bcast_S_S6400000 (constant (F := Ideal) S_ .f32 0x3F800000#32))) shapeCasts_S200000_S200000x1 (ix2 n u)
      = Cert.Spec.deg (fun e => x (ix2 k e)) n := by
  rw [Column.shapeCast_a_a1_apply, scatVec_entry]
  rw [splat_apply, constant_apply, Ideal.ofBits_zero_f32, zero_add]
  unfold Cert.Spec.deg
  refine Finset.sum_congr rfl fun e _ => ?_
  rw [col_of_vec, row_of_table, splat_apply, constant_apply, ofBits_one]

theorem degOut_entry (c : Dev nD) (n : Fin 200000) :
    (W1 m ρ c (Proc.devRef .tc main_v8) : S200000x1.Idx → EReal) (ix2 n (0 : Fin 1)) = Cert.Spec.deg (Cert.Spec.swOf (edges m c)) n := by
  rw [W1_v8]
  exact count_entry (edges m c) 0 _ n 0

theorem degIn_entry (c : Dev nD) (n : Fin 200000) :
    (W1 m ρ c (Proc.devRef .tc main_v12) : S200000x1.Idx → EReal) (ix2 n (0 : Fin 1)) = Cert.Spec.deg (Cert.Spec.dwOf (edges m c)) n := by
  rw [W1_v12]
  exact count_entry (edges m c) 1 _ n 0

/-! ## After the first call: the two normalisation arrays, and what the call left alone -/

theorem normOut_entry (c : Dev nD) (n : Fin 200000) :
    (W2 m ρ c (Proc.devRef .tc main_v13_0) : S200000x1.Idx → EReal) (ix2 n (0 : Fin 1)) = Cert.Spec.nO (Cert.Spec.swOf (edges m c)) n := by
  have h := Cert.KernelIdeal.Reg0.normOut_entry (V1 m ρ) c n
  rw [show Cert.KernelIdeal.Reg0.degOutArr (V1 m ρ) c (ix2 n (0 : Fin 1)) = _ from degOut_entry m ρ c n] at h
  exact (congrFun (W2_arr m ρ c 2) _).trans h

theorem normIn_entry (c : Dev nD) (n : Fin 200000) :
    (W2 m ρ c (Proc.devRef .tc main_v13_1) : S200000x1.Idx → EReal) (ix2 n (0 : Fin 1)) = Cert.Spec.nI (Cert.Spec.dwOf (edges m c)) n := by
  have h := Cert.KernelIdeal.Reg0.normIn_entry (V1 m ρ) c n
  rw [show Cert.KernelIdeal.Reg0.degInArr (V1 m ρ) c (ix2 n (0 : Fin 1)) = _ from degIn_entry m ρ c n] at h
  exact (congrFun (W2_arr m ρ c 3) _).trans h

/-- An argument array is as launched when the first call returns. -/
theorem W1_arg0 (c : Dev nD) : (W1 m ρ c (Proc.devRef .tc main_arg0) : S200000x1.Idx → EReal) = feat m c := by
  show StableHlo.after hostOps0 (W0 m ρ c) (Proc.devRef .tc main_arg0) = _
  after_results
theorem W1_arg2 (c : Dev nD) : (W1 m ρ c (Proc.devRef .tc main_arg2) : S200000.Idx → BitVec 32) = gids m c := by
  show StableHlo.after hostOps0 (W0 m ρ c) (Proc.devRef .tc main_arg2) = _
  after_results
theorem W1_arg3 (c : Dev nD) : (W1 m ρ c (Proc.devRef .tc main_arg3) : S1x32.Idx → EReal) = wt1 m c := by
  show StableHlo.after hostOps0 (W0 m ρ c) (Proc.devRef .tc main_arg3) = _
  after_results
theorem W1_arg4 (c : Dev nD) : (W1 m ρ c (Proc.devRef .tc main_arg4) : S32.Idx → EReal) = bs1 m c := by
  show StableHlo.after hostOps0 (W0 m ρ c) (Proc.devRef .tc main_arg4) = _
  after_results
theorem W1_arg5 (c : Dev nD) : (W1 m ρ c (Proc.devRef .tc main_arg5) : S32x1.Idx → EReal) = wt2 m c := by
  show StableHlo.after hostOps0 (W0 m ρ c) (Proc.devRef .tc main_arg5) = _
  after_results
theorem W1_arg6 (c : Dev nD) : (W1 m ρ c (Proc.devRef .tc main_arg6) : S1.Idx → EReal) = bs2 m c := by
  show StableHlo.after hostOps0 (W0 m ρ c) (Proc.devRef .tc main_arg6) = _
  after_results

theorem W2_arg0 (c : Dev nD) : (W2 m ρ c (Proc.devRef .tc main_arg0) : S200000x1.Idx → EReal) = feat m c :=
  (W2_of_ne m ρ c main_arg0 (by decide)).trans (W1_arg0 m ρ c)
theorem W2_arg2 (c : Dev nD) : (W2 m ρ c (Proc.devRef .tc main_arg2) : S200000.Idx → BitVec 32) = gids m c :=
  (W2_of_ne m ρ c main_arg2 (by decide)).trans (W1_arg2 m ρ c)
theorem W2_arg3 (c : Dev nD) : (W2 m ρ c (Proc.devRef .tc main_arg3) : S1x32.Idx → EReal) = wt1 m c :=
  (W2_of_ne m ρ c main_arg3 (by decide)).trans (W1_arg3 m ρ c)
theorem W2_arg4 (c : Dev nD) : (W2 m ρ c (Proc.devRef .tc main_arg4) : S32.Idx → EReal) = bs1 m c :=
  (W2_of_ne m ρ c main_arg4 (by decide)).trans (W1_arg4 m ρ c)
theorem W2_arg5 (c : Dev nD) : (W2 m ρ c (Proc.devRef .tc main_arg5) : S32x1.Idx → EReal) = wt2 m c :=
  (W2_of_ne m ρ c main_arg5 (by decide)).trans (W1_arg5 m ρ c)
theorem W2_arg6 (c : Dev nD) : (W2 m ρ c (Proc.devRef .tc main_arg6) : S1.Idx → EReal) = bs2 m c :=
  (W2_of_ne m ρ c main_arg6 (by decide)).trans (W1_arg6 m ρ c)
theorem W2_src (c : Dev nD) (e : Fin 6400000) :
    (W2 m ρ c (Proc.devRef .tc main_v1) : S6400000.Idx → BitVec 32) (ix1 e) = Cert.Spec.swOf (edges m c) e :=
  (congrFun (W2_of_ne m ρ c main_v1 (by decide)) _).trans (srcWord m ρ c e)
theorem W2_dst (c : Dev nD) (e : Fin 6400000) :
    (W2 m ρ c (Proc.devRef .tc main_v3) : S6400000.Idx → BitVec 32) (ix1 e) = Cert.Spec.dwOf (edges m c) e :=
  (congrFun (W2_of_ne m ρ c main_v3 (by decide)) _).trans (dstWord m ρ c e)

/-! ## Row gathers and row scatters of one-column tables, over any operands -/

/-- A column scatter-add at node n: the operand there plus the updates of the rows whose index word reads n. -/
theorem scatCol_entry (x0 : FVec Ideal S200000x1 .f32) (idx : IVec S6400000x1 32) (upd : FVec Ideal S6400000x1 .f32)
    (n : Fin 200000) (a : Fin 1) :
    Host.scatterAdd (F := Ideal) scatter_S200000x1_S6400000x1_S6400000x1_1_0_0_1 x0 idx upd (ix2 n a)
      = x0 (ix2 n a) + ∑ e : Fin 6400000, if (idx (ix2 e (0 : Fin 1))).toInt = (n.val : ℤ) then upd (ix2 e a) else 0 :=
  ScatterRows.scatterRows2_apply _ rfl rfl rfl rfl x0 idx upd n a

/-- A row gather from a one-column table at edge e: the table's row the index word names, read signed and clamped. -/
theorem gatherCol_entry (x : FVec Ideal S200000x1 .f32) (idx : IVec S6400000x1 32) (e : Fin 6400000) (a : Fin 1) :
    Host.gather gather_S200000x1_S6400000x1_S6400000x1_1_0_n_n_0_1_11 x idx (ix2 e a)
      = x (ix2 (⟨min (idx (ix2 e (0 : Fin 1))).toInt.toNat (200000 - 1), by omega⟩ : Fin 200000) a) :=
  Cert.LibRowGather.gather_rows_apply (N := 200000) (C := 1) (R := 6400000) (by decide)
    gather_S200000x1_S6400000x1_S6400000x1_1_0_n_n_0_1_11.wf x idx (ix2 e a)

/-- The same with the index word named. -/
theorem gatherCol_entry_of (x : FVec Ideal S200000x1 .f32) (idx : IVec S6400000x1 32) (e : Fin 6400000) (a : Fin 1)
    (w : BitVec 32) (hw : idx (ix2 e (0 : Fin 1)) = w) :
    Host.gather gather_S200000x1_S6400000x1_S6400000x1_1_0_n_n_0_1_11 x idx (ix2 e a)
      = x (ix2 (⟨min w.toInt.toNat (200000 - 1), by omega⟩ : Fin 200000) a) := by
  subst hw
  exact gatherCol_entry x idx e a

/-- The index column a gather reads: the source words, a negative one wrapped by the table's length. -/
theorem wrapCol_entry (w : IVec S6400000 32) (e : Fin 6400000) (u : Fin 1) :
    broadcastInDim S6400000x1 ![0] bcast_S6400000_S6400000x1_0
      (select (cmpi .slt w (broadcastInDim S6400000 ![] bcast_S_S6400000 (constantI S_ 32 0#32)))
        (addi w (broadcastInDim S6400000 ![] bcast_S_S6400000 (constantI S_ 32 200000#32))) w) (ix2 e u)
      = Cert.Spec.wrapw (w (ix1 e)) := by
  rw [col_of_vec]
  rfl

/-- The two-step edge aggregation both layers share: per-node values gathered at the wrapped source words and summed
    at the destination words. -/
theorem aggregate_entry (tbl : FVec Ideal S200000x1 .f32) (srcw dstw : IVec S6400000 32) (n : Fin 200000) :
    Host.scatterAdd (F := Ideal) scatter_S200000x1_S6400000x1_S6400000x1_1_0_0_1
        (broadcastInDim S200000x1 ![] bcast_S_S200000x1 (constant (F := Ideal) S_ .f32 0x00000000#32))
        (broadcastInDim S6400000x1 ![0] bcast_S6400000_S6400000x1_0 dstw)
        (Host.gather gather_S200000x1_S6400000x1_S6400000x1_1_0_n_n_0_1_11 tbl
          (broadcastInDim S6400000x1 ![0] bcast_S6400000_S6400000x1_0
            (select (cmpi .slt srcw (broadcastInDim S6400000 ![] bcast_S_S6400000 (constantI S_ 32 0#32)))
              (addi srcw (broadcastInDim S6400000 ![] bcast_S_S6400000 (constantI S_ 32 200000#32))) srcw)))
        (ix2 n (0 : Fin 1))
      = Cert.Spec.scat (fun e => dstw (ix1 e))
          (fun e => tbl (ix2 (Cert.Spec.row (fun e => Cert.Spec.wrapw (srcw (ix1 e))) e) (0 : Fin 1))) n := by
  rw [scatCol_entry, splat_apply, constant_apply, Ideal.ofBits_zero_f32, zero_add]
  unfold Cert.Spec.scat
  refine Finset.sum_congr rfl fun e _ => ?_
  rw [col_of_vec, gatherCol_entry_of _ _ e 0 _ (wrapCol_entry srcw e 0)]
  rfl

/-! ## Between the first and the second call: the first layer's aggregate -/

/-- What the first call's exit leaves in the buffers the next stretch reads, each at its literal type. -/
abbrev srcW2 (c : Dev nD) : IVec S6400000 32 := W2 m ρ c (Proc.devRef .tc main_v1)
abbrev dstW2 (c : Dev nD) : IVec S6400000 32 := W2 m ρ c (Proc.devRef .tc main_v3)
abbrev featW2 (c : Dev nD) : FVec Ideal S200000x1 .f32 := W2 m ρ c (Proc.devRef .tc main_arg0)
abbrev nOutW2 (c : Dev nD) : FVec Ideal S200000x1 .f32 := W2 m ρ c (Proc.devRef .tc main_v13_0)

theorem W3_v24 (c : Dev nD) :
    (W3 m ρ c (Proc.devRef .tc main_v24) : S200000x1.Idx → EReal)
      = Host.scatterAdd (F := Ideal) scatter_S200000x1_S6400000x1_S6400000x1_1_0_0_1
        (broadcastInDim S200000x1 ![] bcast_S_S200000x1 (constant (F := Ideal) S_ .f32 0x00000000#32))
        (broadcastInDim S6400000x1 ![0] bcast_S6400000_S6400000x1_0 (dstW2 m ρ c))
        (Host.gather gather_S200000x1_S6400000x1_S6400000x1_1_0_n_n_0_1_11 (mulf (featW2 m ρ c) (nOutW2 m ρ c))
          (broadcastInDim S6400000x1 ![0] bcast_S6400000_S6400000x1_0
            (select (cmpi .slt (srcW2 m ρ c) (broadcastInDim S6400000 ![] bcast_S_S6400000 (constantI S_ 32 0#32)))
              (addi (srcW2 m ρ c) (broadcastInDim S6400000 ![] bcast_S_S6400000 (constantI S_ 32 200000#32))) (srcW2 m ρ c)))) := by
  show StableHlo.after hostOps1 (W2 m ρ c) (Proc.devRef .tc main_v24) = _
  after_results <;> rfl

theorem dstW2_eq (c : Dev nD) : (fun e => dstW2 m ρ c (ix1 e)) = Cert.Spec.dwOf (edges m c) := funext (W2_dst m ρ c)
theorem srcW2_eq (c : Dev nD) : (fun e => Cert.Spec.wrapw (srcW2 m ρ c (ix1 e))) = Cert.Spec.rwOf (edges m c) :=
  funext fun e => congrArg Cert.Spec.wrapw (W2_src m ρ c e)

/-- The first layer's aggregate at node n. -/
theorem agg1_entry (c : Dev nD) (n : Fin 200000) :
    (W3 m ρ c (Proc.devRef .tc main_v24) : S200000x1.Idx → EReal) (ix2 n (0 : Fin 1))
      = Cert.Spec.scat (Cert.Spec.dwOf (edges m c))
          (fun e => Cert.Spec.msg1 (Cert.Spec.swOf (edges m c)) (Cert.Spec.xOf (feat m c)) (Cert.Spec.row (Cert.Spec.rwOf (edges m c)) e)) n := by
  rw [W3_v24, aggregate_entry, dstW2_eq, srcW2_eq]
  refine congrArg (fun f => Cert.Spec.scat _ f n) (funext fun e => ?_)
  rw [mulf_apply, show featW2 m ρ c = feat m c from W2_arg0 m ρ c,
    show nOutW2 m ρ c (ix2 _ (0 : Fin 1)) = _ from normOut_entry m ρ c _]
  rfl

/-- What the stretch leaves alone, and the bias row it lays out as a [1,32] table. -/
theorem W3_v13_1 (c : Dev nD) : W3 m ρ c (Proc.devRef .tc main_v13_1) = W2 m ρ c (Proc.devRef .tc main_v13_1) := by
  show StableHlo.after hostOps1 (W2 m ρ c) (Proc.devRef .tc main_v13_1) = _
  after_results
theorem W3_v13_0 (c : Dev nD) : W3 m ρ c (Proc.devRef .tc main_v13_0) = W2 m ρ c (Proc.devRef .tc main_v13_0) := by
  show StableHlo.after hostOps1 (W2 m ρ c) (Proc.devRef .tc main_v13_0) = _
  after_results
theorem W3_arg3 (c : Dev nD) : (W3 m ρ c (Proc.devRef .tc main_arg3) : S1x32.Idx → EReal) = wt1 m c := by
  refine Eq.trans ?_ (W2_arg3 m ρ c)
  show StableHlo.after hostOps1 (W2 m ρ c) (Proc.devRef .tc main_arg3) = _
  after_results
theorem W3_arg5 (c : Dev nD) : (W3 m ρ c (Proc.devRef .tc main_arg5) : S32x1.Idx → EReal) = wt2 m c := by
  refine Eq.trans ?_ (W2_arg5 m ρ c)
  show StableHlo.after hostOps1 (W2 m ρ c) (Proc.devRef .tc main_arg5) = _
  after_results
theorem W3_v25 (c : Dev nD) :
    (W3 m ρ c (Proc.devRef .tc main_v25) : S1x32.Idx → EReal) = shapeCast S1x32 (bs1 m c) shapeCasts_S32_S1x32 := by
  rw [← W2_arg4 m ρ c]
  show StableHlo.after hostOps1 (W2 m ρ c) (Proc.devRef .tc main_v25) = _
  after_results <;> rfl

/-- A vector laid out as a one-row table, at column j. -/
theorem rowTable_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-! ## After the second call: the second layer's message -/

theorem msg2_entry (c : Dev nD) (n : Fin 200000) :
    (W4 m ρ c (Proc.devRef .tc main_v26) : S200000x1.Idx → EReal) (ix2 n (0 : Fin 1))
      = Cert.Spec.msg2 (Cert.Spec.swOf (edges m c)) (Cert.Spec.w2Of (wt2 m c))
          (Cert.Spec.hidK (Cert.Spec.swOf (edges m c)) (Cert.Spec.dwOf (edges m c)) (Cert.Spec.rwOf (edges m c))
            (Cert.Spec.xOf (feat m c)) (Cert.Spec.w1Of (wt1 m c)) (Cert.Spec.b1Of (bs1 m c))) n := by
  refine (congrFun (W4_arr m ρ c 6) _).trans ?_
  refine (Cert.KernelIdeal.Reg1.layer_entry (V3 m ρ) c n).trans ?_
  unfold Cert.Spec.msg2 Cert.Spec.hidK
  refine Finset.sum_congr rfl fun j _ => ?_
  rw [show Cert.KernelIdeal.Reg1.aggArr (V3 m ρ) c (ix2 n (0 : Fin 1)) = _ from agg1_entry m ρ c n,
    show Cert.KernelIdeal.Reg1.nInArr (V3 m ρ) c (ix2 n (0 : Fin 1)) = _ from
      (congrFun (W3_v13_1 m ρ c) _).trans (normIn_entry m ρ c n),
    show Cert.KernelIdeal.Reg1.nOutArr (V3 m ρ) c (ix2 n (0 : Fin 1)) = _ from
      (congrFun (W3_v13_0 m ρ c) _).trans (normOut_entry m ρ c n),
    show Cert.KernelIdeal.Reg1.w1Arr (V3 m ρ) c = _ from W3_arg3 m ρ c,
    show Cert.KernelIdeal.Reg1.w2Arr (V3 m ρ) c = _ from W3_arg5 m ρ c,
    show Cert.KernelIdeal.Reg1.b1Arr (V3 m ρ) c = _ from W3_v25 m ρ c, rowTable_apply]
  rfl

/-! ## Between the second and the third call: the second layer's aggregate -/

/-- What the second call's exit leaves in the buffers the next stretch reads, each at its literal type. -/
abbrev srcW4 (c : Dev nD) : IVec S6400000 32 := W4 m ρ c (Proc.devRef .tc main_v1)
abbrev dstW4 (c : Dev nD) : IVec S6400000 32 := W4 m ρ c (Proc.devRef .tc main_v3)
abbrev msgW4 (c : Dev nD) : FVec Ideal S200000x1 .f32 := W4 m ρ c (Proc.devRef .tc main_v26)

/-- The second call leaves the source and destination words, the graph words and the second bias alone. -/
theorem W4_keep (c : Dev nD) (b : Ref sig .tc) (hb : ∀ w, Pipeline.arrRef spec1 w ≠ b)
    (h3 : W3 m ρ c (Proc.devRef .tc b) = W2 m ρ c (Proc.devRef .tc b)) :
    W4 m ρ c (Proc.devRef .tc b) = W2 m ρ c (Proc.devRef .tc b) :=
  (W4_of_ne m ρ c b hb).trans h3

theorem W3_v1 (c : Dev nD) : W3 m ρ c (Proc.devRef .tc main_v1) = W2 m ρ c (Proc.devRef .tc main_v1) := by
  show StableHlo.after hostOps1 (W2 m ρ c) (Proc.devRef .tc main_v1) = _
  after_results
theorem W3_v3 (c : Dev nD) : W3 m ρ c (Proc.devRef .tc main_v3) = W2 m ρ c (Proc.devRef .tc main_v3) := by
  show StableHlo.after hostOps1 (W2 m ρ c) (Proc.devRef .tc main_v3) = _
  after_results
theorem W3_arg2 (c : Dev nD) : W3 m ρ c (Proc.devRef .tc main_arg2) = W2 m ρ c (Proc.devRef .tc main_arg2) := by
  show StableHlo.after hostOps1 (W2 m ρ c) (Proc.devRef .tc main_arg2) = _
  after_results
theorem W3_arg6 (c : Dev nD) : W3 m ρ c (Proc.devRef .tc main_arg6) = W2 m ρ c (Proc.devRef .tc main_arg6) := by
  show StableHlo.after hostOps1 (W2 m ρ c) (Proc.devRef .tc main_arg6) = _
  after_results

theorem W4_src (c : Dev nD) (e : Fin 6400000) : srcW4 m ρ c (ix1 e) = Cert.Spec.swOf (edges m c) e :=
  (congrFun (W4_keep m ρ c main_v1 (by decide) (W3_v1 m ρ c)) _).trans (W2_src m ρ c e)
theorem W4_dst (c : Dev nD) (e : Fin 6400000) : dstW4 m ρ c (ix1 e) = Cert.Spec.dwOf (edges m c) e :=
  (congrFun (W4_keep m ρ c main_v3 (by decide) (W3_v3 m ρ c)) _).trans (W2_dst m ρ c e)
theorem W4_arg2 (c : Dev nD) : (W4 m ρ c (Proc.devRef .tc main_arg2) : S200000.Idx → BitVec 32) = gids m c :=
  (W4_keep m ρ c main_arg2 (by decide) (W3_arg2 m ρ c)).trans (W2_arg2 m ρ c)
theorem W4_arg6 (c : Dev nD) : (W4 m ρ c (Proc.devRef .tc main_arg6) : S1.Idx → EReal) = bs2 m c :=
  (W4_keep m ρ c main_arg6 (by decide) (W3_arg6 m ρ c)).trans (W2_arg6 m ρ c)

/-- The in-normalisation array is an input of the second call: it leaves the call as it entered. -/
theorem W4_nIn (c : Dev nD) (n : Fin 200000) :
    (W4 m ρ c (Proc.devRef .tc main_v13_1) : S200000x1.Idx → EReal) (ix2 n (0 : Fin 1)) = Cert.Spec.nI (Cert.Spec.dwOf (edges m c)) n := by
  have h : W4 m ρ c (Proc.devRef .tc main_v13_1) = W3 m ρ c (Proc.devRef .tc main_v13_1) :=
    (W4_arr m ρ c 1).trans (((dat1 (V3 m ρ) c).arrAt_in 1 rfl _).trans (A_eq1 (V3 m ρ) c 1))
  exact (congrFun (h.trans (W3_v13_1 m ρ c)) _).trans (normIn_entry m ρ c n)

theorem W5_v36 (c : Dev nD) :
    (W5 m ρ c (Proc.devRef .tc main_v36) : S200000x1.Idx → EReal)
      = Host.scatterAdd (F := Ideal) scatter_S200000x1_S6400000x1_S6400000x1_1_0_0_1
        (broadcastInDim S200000x1 ![] bcast_S_S200000x1 (constant (F := Ideal) S_ .f32 0x00000000#32))
        (broadcastInDim S6400000x1 ![0] bcast_S6400000_S6400000x1_0 (dstW4 m ρ c))
        (Host.gather gather_S200000x1_S6400000x1_S6400000x1_1_0_n_n_0_1_11 (msgW4 m ρ c)
          (broadcastInDim S6400000x1 ![0] bcast_S6400000_S6400000x1_0
            (select (cmpi .slt (srcW4 m ρ c) (broadcastInDim S6400000 ![] bcast_S_S6400000 (constantI S_ 32 0#32)))
              (addi (srcW4 m ρ c) (broadcastInDim S6400000 ![] bcast_S_S6400000 (constantI S_ 32 200000#32))) (srcW4 m ρ c)))) := by
  show StableHlo.after hostOps2 (W4 m ρ c) (Proc.devRef .tc main_v36) = _
  after_results <;> rfl

/-- The hidden features as this program computes them. -/
abbrev hid (c : Dev nD) : Fin 200000 → Fin 32 → EReal :=
  Cert.Spec.hidK (Cert.Spec.swOf (edges m c)) (Cert.Spec.dwOf (edges m c)) (Cert.Spec.rwOf (edges m c))
    (Cert.Spec.xOf (feat m c)) (Cert.Spec.w1Of (wt1 m c)) (Cert.Spec.b1Of (bs1 m c))

/-- The second layer's aggregate at node n. -/
theorem agg2_entry (c : Dev nD) (n : Fin 200000) :
    (W5 m ρ c (Proc.devRef .tc main_v36) : S200000x1.Idx → EReal) (ix2 n (0 : Fin 1))
      = Cert.Spec.scat (Cert.Spec.dwOf (edges m c))
          (fun e => Cert.Spec.msg2 (Cert.Spec.swOf (edges m c)) (Cert.Spec.w2Of (wt2 m c)) (hid m c)
            (Cert.Spec.row (Cert.Spec.rwOf (edges m c)) e)) n := by
  rw [W5_v36, aggregate_entry,
    show (fun e => dstW4 m ρ c (ix1 e)) = Cert.Spec.dwOf (edges m c) from funext (W4_dst m ρ c),
    show (fun e => Cert.Spec.wrapw (srcW4 m ρ c (ix1 e))) = Cert.Spec.rwOf (edges m c) from
      funext fun e => congrArg Cert.Spec.wrapw (W4_src m ρ c e)]
  refine congrArg (fun f => Cert.Spec.scat _ f n) (funext fun e => ?_)
  exact msg2_entry m ρ c _

/-- What the stretch before the third call lays out: the graph words as a column, the second bias as a [1,1] table;
    and the in-normalisation array it leaves alone. -/
theorem W5_v38 (c : Dev nD) :
    (W5 m ρ c (Proc.devRef .tc main_v38) : S200000x1.Idx → BitVec 32) = shapeCast S200000x1 (gids m c) shapeCasts_S200000_S200000x1 := by
  rw [← W4_arg2 m ρ c]
  show StableHlo.after hostOps2 (W4 m ρ c) (Proc.devRef .tc main_v38) = _
  after_results <;> rfl
theorem W5_v37 (c : Dev nD) :
    (W5 m ρ c (Proc.devRef .tc main_v37) : S1x1.Idx → EReal) = shapeCast S1x1 (bs2 m c) shapeCasts_S1_S1x1 := by
  rw [← W4_arg6 m ρ c]
  show StableHlo.after hostOps2 (W4 m ρ c) (Proc.devRef .tc main_v37) = _
  after_results <;> rfl
theorem W5_v13_1 (c : Dev nD) : W5 m ρ c (Proc.devRef .tc main_v13_1) = W4 m ρ c (Proc.devRef .tc main_v13_1) := by
  show StableHlo.after hostOps2 (W4 m ρ c) (Proc.devRef .tc main_v13_1) = _
  after_results

/-! ## After the third call: the per-graph sums and counts, and the result -/

theorem sums_entry (c : Dev nD) (g : Fin 1024) :
    (W6 m ρ c (Proc.devRef .tc main_v39_0) : S1x1024.Idx → EReal) (ix2 (0 : Fin 1) g)
      = Cert.Spec.gsum (Cert.Spec.swOf (edges m c)) (Cert.Spec.dwOf (edges m c)) (Cert.Spec.rwOf (edges m c))
          (Cert.Spec.gwOf (gids m c)) (Cert.Spec.w2Of (wt2 m c)) (Cert.Spec.b2Of (bs2 m c)) (hid m c) g.val := by
  refine (congrFun (W6_arr m ρ c 4) _).trans ?_
  refine (Cert.KernelIdeal.Reg2.sums_entry (V5 m ρ) c g).trans ?_
  unfold Cert.Spec.gsum Cert.Spec.out2
  refine Finset.sum_congr rfl fun k _ => ?_
  rw [show Cert.KernelIdeal.Reg2.gidArr (V5 m ρ) c = _ from W5_v38 m ρ c,
    show Cert.KernelIdeal.Reg2.agg2Arr (V5 m ρ) c (ix2 k (0 : Fin 1)) = _ from agg2_entry m ρ c k,
    show Cert.KernelIdeal.Reg2.nInArr (V5 m ρ) c (ix2 k (0 : Fin 1)) = _ from
      (congrFun (W5_v13_1 m ρ c) _).trans (W4_nIn m ρ c k),
    show Cert.KernelIdeal.Reg2.b2Arr (V5 m ρ) c = _ from W5_v37 m ρ c,
    Column.shapeCast_a_a1_apply, Column.shapeCast_a_a1_apply]
  rfl

theorem counts_entry (c : Dev nD) (g : Fin 1024) :
    (W6 m ρ c (Proc.devRef .tc main_v39_1) : S1x1024.Idx → EReal) (ix2 (0 : Fin 1) g)
      = Cert.Spec.gcnt (Cert.Spec.gwOf (gids m c)) g.val := by
  refine (congrFun (W6_arr m ρ c 5) _).trans ?_
  refine (Cert.KernelIdeal.Reg2.counts_entry (V5 m ρ) c g).trans ?_
  unfold Cert.Spec.gcnt
  refine Finset.sum_congr rfl fun k _ => ?_
  rw [show Cert.KernelIdeal.Reg2.gidArr (V5 m ρ) c = _ from W5_v38 m ρ c, Column.shapeCast_a_a1_apply]
  rfl

/-- The first thousand columns of a [1,1024] table, flattened. -/
theorem head_cols {α : Type} (x : S1x1024.Idx → α) (g : Fin 1000) :
    shapeCast S1000 (extractStridedSlice S1x1000 ![0, 0] x slices_S1x1024_S1x1000_0_0) shapeCasts_S1x1000_S1000 (ix1 g)
      = x (ix2 (0 : Fin 1) (⟨g.val, by omega⟩ : Fin 1024)) := by
  rw [shapeCast_apply _ shapeCasts_S1x1000_S1000 (ix1 g) (ix2 (0 : Fin 1) g) (by
    rw [Shape.rowMajor_val_two, Shape.rowMajor_val_one]; show 0 * 1000 + g.val = g.val; omega)]
  exact extractStridedSlice_apply _ x slices_S1x1024_S1x1000_0_0 _ _ (fun a => match a with
    | ⟨0, _⟩ => by show (0 : ℕ) = 0 + 0; rfl
    | ⟨1, _⟩ => by show g.val = 0 + g.val; omega)

theorem W7_v46 (c : Dev nD) :
    (W7 m ρ c (Proc.devRef .tc main_v46) : S1000.Idx → EReal)
      = Host.divf (F := Ideal)
          (shapeCast S1000 (extractStridedSlice S1x1000 ![0, 0] (W6 m ρ c (Proc.devRef .tc main_v39_0) : S1x1024.Idx → EReal) slices_S1x1024_S1x1000_0_0) shapeCasts_S1x1000_S1000)
          (maximumf (F := Ideal)
            (shapeCast S1000 (extractStridedSlice S1x1000 ![0, 0] (W6 m ρ c (Proc.devRef .tc main_v39_1) : S1x1024.Idx → EReal) slices_S1x1024_S1x1000_0_0) shapeCasts_S1x1000_S1000)
            (broadcastInDim S1000 ![] bcast_S_S1000 (constant (F := Ideal) S_ .f32 0x3F800000#32))) := by
  show StableHlo.after hostOps3 (W6 m ρ c) (Proc.devRef .tc main_v46) = _
  after_results <;> rfl

/-- THE KERNEL PROGRAM'S RESULT at graph g, as a function of the seven argument arrays. -/
theorem result_entry (c : Dev nD) (g : Fin 1000) :
    (W7 m ρ c (Proc.devRef .tc main_v46) : S1000.Idx → EReal) (ix1 g)
      = Cert.Spec.resultK (feat m c) (edges m c) (gids m c) (wt1 m c) (bs1 m c) (wt2 m c) (bs2 m c) g := by
  rw [W7_v46]
  show Ideal.div _ (max _ _) = _
  rw [head_cols, head_cols, splat_apply, constant_apply, ofBits_one, sums_entry, counts_entry]
  rfl

end Cert.KernelIdeal.KHost

end
-- ==== Proof.RefValue.lean ====
import proofs.«430448_j86981677679168_2_alg».proof.Proof.RefRead
import proofs.«430448_j86981677679168_2_alg».proof.Proof.Spec
import proofs.«430448_j86981677679168_2_alg».proof.Proof.LibScatterRows
import proofs.«430448_j86981677679168_2_alg».proof.Proof.LibRowGather
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Read

/-- A rank-1 index with a known coordinate. -/
private theorem to_ix1 {n : ℕ} (i : (⟨1, ![n]⟩ : Shape).Idx) (a : Fin n) (h : (i 0).val = a.val) : i = ix1 a := by
  have e0 : i 0 = a := Fin.ext h
  exact (eq_ix1 i).trans (congrArg ix1 e0)

/-- A rank-2 index with known coordinates. -/
private theorem to_ix2 {n0 n1 : ℕ} (i : (⟨2, ![n0, n1]⟩ : Shape).Idx) (a : Fin n0) (b : Fin n1)
    (h0 : (i 0).val = a.val) (h1 : (i 1).val = b.val) : i = ix2 a b := by
  have e0 : i 0 = a := Fin.ext h0
  have e1 : i 1 = b := Fin.ext h1
  exact (eq_ix2 i).trans (congrArg₂ ix2 e0 e1)

/-- The word 0x3F800000 encodes the real number one. -/
private theorem one_word : Ideal.ofBits .f32 0x3F800000#32 = 1 := by
  simp [Ideal.ofBits, Ideal.ieee]
  rw [← EReal.coe_mul]
  norm_num

/-- A comparison bit choosing between two values is the conditional on the compared order. -/
private theorem select_gt (d a b : EReal) :
    Scalar.select (Ideal.cmp .ogt d 0) a b = if 0 < d then a else b := by
  unfold Scalar.select Ideal.cmp
  by_cases h : (0 : EReal) < d
  · simp [h]
  · simp [h]

/-- A vector scatter-add of the program, read at an entry (the general statement at the program's operation). -/
private theorem scat1 {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : FVec Ideal ⟨1, ![C]⟩ .f32) (idx : IVec ⟨2, ![N, 1]⟩ w) (upd : FVec Ideal ⟨1, ![N]⟩ .f32) (c : Fin C) :
    Host.scatterAdd d x idx upd (ix1 c) =
      x (ix1 c) + ∑ n : Fin N, if (idx (ix2 n (0 : Fin 1))).toInt = (c.val : ℤ) then upd (ix1 n) else 0 :=
  ScatterRows.scatterRows1_apply d hu hi hs hv x idx upd c

/-- A row scatter-add of the program, read at an entry. -/
private theorem scat2 {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : FVec Ideal ⟨2, ![C, A]⟩ .f32) (idx : IVec ⟨2, ![N, 1]⟩ w) (upd : FVec Ideal ⟨2, ![N, A]⟩ .f32)
    (c : Fin C) (a : Fin A) :
    Host.scatterAdd d x idx upd (ix2 c a) =
      x (ix2 c a) + ∑ n : Fin N, if (idx (ix2 n (0 : Fin 1))).toInt = (c.val : ℤ) then upd (ix2 n a) else 0 :=
  ScatterRows.scatterRows2_apply d hu hi hs hv x idx upd c a

/-- A start word read signed and clamped into a table of N rows. -/
private def clampRow (N : ℕ) (hN : 0 < N) {w : ℕ} (b : BitVec w) : Fin N :=
  ⟨min b.toInt.toNat (N - 1), by omega⟩

/-- A row gather of the program, read at an entry: the table's row named by the clamped start word. -/
private theorem gath {N C R w : ℕ} (hN : 0 < N) (d : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C])
    (hd : d = Cert.LibRowGather.rowDims N C R wf)
    (x : (⟨2, ![N, C]⟩ : Shape).Idx → EReal) (idx : IVec ⟨2, ![R, 1]⟩ w) (r : Fin R) (j : Fin C) :
    Host.gather d x idx (ix2 r j) = x (ix2 (clampRow N hN (idx (ix2 r (0 : Fin 1)))) j) := by
  subst hd
  exact Cert.LibRowGather.gather_rows_apply hN wf x idx (ix2 r j)

/-- The clamped wrapped source word of edge e is the row the specification reads. -/
private theorem clampRow_row (rw : Fin 6400000 → BitVec 32) (e : Fin 6400000) (h : 0 < 200000) :
    clampRow 200000 h (rw e) = Cert.Spec.row rw e := rfl

/-! ## The edge table's two rows, the degrees and the normalisations -/

section Edges
variable (x1 : S2x6400000.Idx → BitVec 32)

/-- Row 0 of the edge table as a vector. -/
private theorem v1_read (e : Fin 6400000) :
    (val_main_v1 (F := Ideal) x1 : S6400000.Idx → BitVec 32) (ix1 e) = x1 (ix2 (0 : Fin 2) e) := by
  rw [val_main_v1_apply, val_main_v0_apply]
  exact congrArg x1 (to_ix2 _ _ _ rfl (Nat.mod_eq_of_lt e.isLt))

/-- Row 1 of the edge table as a vector. -/
private theorem v3_read (e : Fin 6400000) :
    (val_main_v3 (F := Ideal) x1 : S6400000.Idx → BitVec 32) (ix1 e) = x1 (ix2 (1 : Fin 2) e) := by
  rw [val_main_v3_apply, val_main_v2_apply]
  exact congrArg x1 (to_ix2 _ _ _ rfl (Nat.mod_eq_of_lt e.isLt))

/-- The source words as a column. -/
private theorem v6_read (e : Fin 6400000) :
    (val_main_v6 (F := Ideal) x1 : S6400000x1.Idx → BitVec 32) (ix2 e (0 : Fin 1)) = Cert.Spec.swOf x1 e := by
  rw [val_main_v6_apply, to_ix1 (idx_main_v6 (ix2 e (0 : Fin 1))) e rfl, v1_read]
  rfl

/-- The destination words as a column (three copies of the same stage). -/
private theorem v9_read (e : Fin 6400000) :
    (val_main_v9 (F := Ideal) x1 : S6400000x1.Idx → BitVec 32) (ix2 e (0 : Fin 1)) = Cert.Spec.dwOf x1 e := by
  rw [val_main_v9_apply, to_ix1 (idx_main_v9 (ix2 e (0 : Fin 1))) e rfl, v3_read]
  rfl
private theorem v34_read (e : Fin 6400000) :
    (val_main_v34 (F := Ideal) x1 : S6400000x1.Idx → BitVec 32) (ix2 e (0 : Fin 1)) = Cert.Spec.dwOf x1 e := by
  rw [val_main_v34_apply, to_ix1 (idx_main_v34 (ix2 e (0 : Fin 1))) e rfl, v3_read]
  rfl
private theorem v55_read (e : Fin 6400000) :
    (val_main_v55 (F := Ideal) x1 : S6400000x1.Idx → BitVec 32) (ix2 e (0 : Fin 1)) = Cert.Spec.dwOf x1 e := by
  rw [val_main_v55_apply, to_ix1 (idx_main_v55 (ix2 e (0 : Fin 1))) e rfl, v3_read]
  rfl

/-- The wrapped source words as a column (two copies of the same stage). -/
private theorem v31_read (e : Fin 6400000) :
    (val_main_v31 (F := Ideal) x1 : S6400000x1.Idx → BitVec 32) (ix2 e (0 : Fin 1)) = Cert.Spec.rwOf x1 e := by
  rw [val_main_v31_apply, to_ix1 (idx_main_v31 (ix2 e (0 : Fin 1))) e rfl, val_main_v30_apply, val_main_v27_apply,
    val_main_v29_apply, val_main_v26_apply, val_main_c_apply, val_main_v28_apply, val_main_c_8_apply, v1_read]
  rfl
private theorem v52_read (e : Fin 6400000) :
    (val_main_v52 (F := Ideal) x1 : S6400000x1.Idx → BitVec 32) (ix2 e (0 : Fin 1)) = Cert.Spec.rwOf x1 e := by
  rw [val_main_v52_apply, to_ix1 (idx_main_v52 (ix2 e (0 : Fin 1))) e rfl, val_main_v51_apply, val_main_v48_apply,
    val_main_v50_apply, val_main_v47_apply, val_main_c_10_apply, val_main_v49_apply, val_main_c_11_apply, v1_read]
  rfl

/-- The first scatter of ones counts, at node n, the edges whose source word reads n. -/
private theorem v7_at (n : Fin 200000) :
    (val_main_v7 (F := Ideal) x1 : S200000.Idx → EReal) (ix1 n) = Cert.Spec.deg (Cert.Spec.swOf x1) n := by
  unfold val_main_v7
  rw [scat1 _ rfl rfl rfl rfl, val_main_v5_apply, val_main_cst_0_apply, Ideal.ofBits_def, Ideal.ofBits_zero_f32,
    zero_add]
  unfold Cert.Spec.deg
  refine Finset.sum_congr rfl fun e _ => ?_
  rw [v6_read, val_main_v4_apply, val_main_cst_apply, Ideal.ofBits_def, one_word]

/-- The second counts those whose destination word reads n. -/
private theorem v10_at (n : Fin 200000) :
    (val_main_v10 (F := Ideal) x1 : S200000.Idx → EReal) (ix1 n) = Cert.Spec.deg (Cert.Spec.dwOf x1) n := by
  unfold val_main_v10
  rw [scat1 _ rfl rfl rfl rfl, val_main_v8_apply, val_main_cst_1_apply, Ideal.ofBits_def, Ideal.ofBits_zero_f32,
    zero_add]
  unfold Cert.Spec.deg
  refine Finset.sum_congr rfl fun e _ => ?_
  rw [v9_read, val_main_v4_apply, val_main_cst_apply, Ideal.ofBits_def, one_word]

/-- The out-normalisation of node n. -/
private theorem v16_at (n : Fin 200000) :
    (val_main_v16 (F := Ideal) x1 : S200000.Idx → EReal) (ix1 n) = Cert.Spec.nO (Cert.Spec.swOf x1) n := by
  rw [val_main_v16_apply, val_main_v12_apply, val_main_v15_apply, val_main_v14_apply, v7_at, val_main_v11_apply,
    val_main_cst_2_apply, val_main_v13_apply, val_main_cst_3_apply, val_main_call0_v1_apply,
    val_main_call0_v0_apply, val_main_cst_4_apply]
  simp only [Ideal.ofBits_def, Ideal.ofBits_zero_f32, one_word, Ideal.cmpf_def, Ideal.maximumf_def,
    Ideal.hostUnary_rsqrt_def]
  rw [select_gt]
  rfl

/-- The in-normalisation of node n. -/
private theorem v22_at (n : Fin 200000) :
    (val_main_v22 (F := Ideal) x1 : S200000.Idx → EReal) (ix1 n) = Cert.Spec.nI (Cert.Spec.dwOf x1) n := by
  rw [val_main_v22_apply, val_main_v18_apply, val_main_v21_apply, val_main_v20_apply, v10_at, val_main_v17_apply,
    val_main_cst_5_apply, val_main_v19_apply, val_main_cst_6_apply, val_main_call1_v1_apply,
    val_main_call1_v0_apply, val_main_cst_7_apply]
  simp only [Ideal.ofBits_def, Ideal.ofBits_zero_f32, one_word, Ideal.cmpf_def, Ideal.maximumf_def,
    Ideal.hostUnary_rsqrt_def]
  rw [select_gt]
  rfl

end Edges

/-! ## The two layers and the readout -/

section Layers
variable (x0 : S200000x1.Idx → EReal) (x1 : S2x6400000.Idx → BitVec 32) (x2 : S200000.Idx → BitVec 32)
  (x3 : S1x32.Idx → EReal) (x4 : S32.Idx → EReal) (x5 : S32x1.Idx → EReal) (x6 : S1.Idx → EReal)

/-- The node feature scaled by the out-normalisation. -/
private theorem v24_at (n : Fin 200000) :
    (val_main_v24 (F := Ideal) x0 x1 : S200000x1.Idx → EReal) (ix2 n (0 : Fin 1))
      = Cert.Spec.msg1 (Cert.Spec.swOf x1) (Cert.Spec.xOf x0) n := by
  rw [val_main_v24_apply, val_main_v23_apply, to_ix1 (idx_main_v23 (ix2 n (0 : Fin 1))) n rfl, v16_at,
    Ideal.mulf_def]
  rfl

/-- The first contraction has one term: the scaled feature times the weight row's entry. -/
private theorem v25_at (n : Fin 200000) (j : Fin 32) :
    (val_main_v25 (F := Ideal) x0 x1 x3 : S200000x32.Idx → EReal) (ix2 n j)
      = Cert.Spec.msg1 (Cert.Spec.swOf x1) (Cert.Spec.xOf x0) n * Cert.Spec.w1Of x3 j := by
  rw [val_main_v25_apply, Fin.sum_univ_one,
    to_ix2 (lidx_main_v25 (ix2 n j) 0) n (0 : Fin 1) rfl rfl,
    to_ix2 (ridx_main_v25 (ix2 n j) 0) (0 : Fin 1) j rfl rfl, v24_at]
  rfl

/-- Edge e reads the product at the node its wrapped source word names. -/
private theorem v32_at (e : Fin 6400000) (j : Fin 32) :
    (val_main_v32 (F := Ideal) x0 x1 x3 : S6400000x32.Idx → EReal) (ix2 e j)
      = Cert.Spec.msg1 (Cert.Spec.swOf x1) (Cert.Spec.xOf x0) (Cert.Spec.row (Cert.Spec.rwOf x1) e)
          * Cert.Spec.w1Of x3 j := by
  unfold val_main_v32
  rw [gath (by norm_num) gather_S200000x32_S6400000x1_S6400000x32_1_0_n_n_0_1_132 Facts₀.gather_S200000x32_S6400000x1_S6400000x32_1_0_n_n_0_1_132_wf rfl, v31_read,
    clampRow_row, v25_at]

/-- The products summed at the node the destination word reads. -/
private theorem v35_at (n : Fin 200000) (j : Fin 32) :
    (val_main_v35 (F := Ideal) x0 x1 x3 : S200000x32.Idx → EReal) (ix2 n j)
      = Cert.Spec.scat (Cert.Spec.dwOf x1) (fun e => Cert.Spec.msg1 (Cert.Spec.swOf x1) (Cert.Spec.xOf x0)
          (Cert.Spec.row (Cert.Spec.rwOf x1) e) * Cert.Spec.w1Of x3 j) n := by
  unfold val_main_v35
  rw [scat2 _ rfl rfl rfl rfl, val_main_v33_apply, val_main_cst_9_apply, Ideal.ofBits_def, Ideal.ofBits_zero_f32,
    zero_add]
  unfold Cert.Spec.scat
  refine Finset.sum_congr rfl fun e _ => ?_
  rw [v34_read, v32_at]

/-- The first layer's output: scaled by the in-normalisation, the bias added, the rectifier applied. -/
private theorem v42_at (n : Fin 200000) (j : Fin 32) :
    (val_main_v42 (F := Ideal) x0 x1 x3 x4 : S200000x32.Idx → EReal) (ix2 n j)
      = Cert.Spec.hidR (Cert.Spec.swOf x1) (Cert.Spec.dwOf x1) (Cert.Spec.rwOf x1) (Cert.Spec.xOf x0)
          (Cert.Spec.w1Of x3) (Cert.Spec.b1Of x4) n j := by
  rw [val_main_v42_apply, val_main_v41_apply, val_main_v38_apply, v35_at,
    val_main_v37_apply, to_ix2 (idx_main_v37 (ix2 n j)) n (0 : Fin 1) rfl rfl,
    val_main_v36_apply, to_ix1 (idx_main_v36 (ix2 n (0 : Fin 1))) n rfl, v22_at,
    val_main_v40_apply, to_ix2 (idx_main_v40 (ix2 n j)) (0 : Fin 1) j rfl rfl,
    val_main_v39_apply, to_ix1 (idx_main_v39 (ix2 (0 : Fin 1) j)) j rfl,
    val_main_call2_v0_apply, val_main_call2_cst_apply, Ideal.ofBits_def, Ideal.ofBits_zero_f32,
    Ideal.maximumf_def, Ideal.addf_def, Ideal.mulf_def]
  rfl

/-- The hidden features scaled by the out-normalisation. -/
private theorem v45_at (n : Fin 200000) (j : Fin 32) :
    (val_main_v45 (F := Ideal) x0 x1 x3 x4 : S200000x32.Idx → EReal) (ix2 n j)
      = Cert.Spec.hidR (Cert.Spec.swOf x1) (Cert.Spec.dwOf x1) (Cert.Spec.rwOf x1) (Cert.Spec.xOf x0)
          (Cert.Spec.w1Of x3) (Cert.Spec.b1Of x4) n j * Cert.Spec.nO (Cert.Spec.swOf x1) n := by
  rw [val_main_v45_apply, v42_at, val_main_v44_apply, to_ix2 (idx_main_v44 (ix2 n j)) n (0 : Fin 1) rfl rfl,
    val_main_v43_apply, to_ix1 (idx_main_v43 (ix2 n (0 : Fin 1))) n rfl, v16_at, Ideal.mulf_def]

/-- The second contraction: the scaled hidden features against the second weight column. -/
private theorem v46_at (n : Fin 200000) :
    (val_main_v46 (F := Ideal) x0 x1 x3 x4 x5 : S200000x1.Idx → EReal) (ix2 n (0 : Fin 1))
      = Cert.Spec.msg2 (Cert.Spec.swOf x1) (Cert.Spec.w2Of x5)
          (Cert.Spec.hidR (Cert.Spec.swOf x1) (Cert.Spec.dwOf x1) (Cert.Spec.rwOf x1) (Cert.Spec.xOf x0)
            (Cert.Spec.w1Of x3) (Cert.Spec.b1Of x4)) n := by
  rw [val_main_v46_apply]
  unfold Cert.Spec.msg2
  refine Finset.sum_congr rfl fun k _ => ?_
  rw [to_ix2 (lidx_main_v46 (ix2 n (0 : Fin 1)) k) n k rfl rfl,
    to_ix2 (ridx_main_v46 (ix2 n (0 : Fin 1)) k) k (0 : Fin 1) rfl rfl, v45_at]
  rfl

/-- Edge e reads the second message at the node its wrapped source word names. -/
private theorem v53_at (e : Fin 6400000) :
    (val_main_v53 (F := Ideal) x0 x1 x3 x4 x5 : S6400000x1.Idx → EReal) (ix2 e (0 : Fin 1))
      = Cert.Spec.msg2 (Cert.Spec.swOf x1) (Cert.Spec.w2Of x5)
          (Cert.Spec.hidR (Cert.Spec.swOf x1) (Cert.Spec.dwOf x1) (Cert.Spec.rwOf x1) (Cert.Spec.xOf x0)
            (Cert.Spec.w1Of x3) (Cert.Spec.b1Of x4)) (Cert.Spec.row (Cert.Spec.rwOf x1) e) := by
  unfold val_main_v53
  rw [gath (by norm_num) gather_S200000x1_S6400000x1_S6400000x1_1_0_n_n_0_1_11
    Facts₀.gather_S200000x1_S6400000x1_S6400000x1_1_0_n_n_0_1_11_wf rfl, v52_read, clampRow_row, v46_at]

/-- The second layer's output at a node. -/
private theorem v61_at (n : Fin 200000) :
    (val_main_v61 (F := Ideal) x0 x1 x3 x4 x5 x6 : S200000x1.Idx → EReal) (ix2 n (0 : Fin 1))
      = Cert.Spec.out2 (Cert.Spec.swOf x1) (Cert.Spec.dwOf x1) (Cert.Spec.rwOf x1) (Cert.Spec.w2Of x5)
          (Cert.Spec.b2Of x6)
          (Cert.Spec.hidR (Cert.Spec.swOf x1) (Cert.Spec.dwOf x1) (Cert.Spec.rwOf x1) (Cert.Spec.xOf x0)
            (Cert.Spec.w1Of x3) (Cert.Spec.b1Of x4)) n := by
  have h56 : (val_main_v56 (F := Ideal) x0 x1 x3 x4 x5 : S200000x1.Idx → EReal) (ix2 n (0 : Fin 1))
      = Cert.Spec.scat (Cert.Spec.dwOf x1) (fun e => Cert.Spec.msg2 (Cert.Spec.swOf x1) (Cert.Spec.w2Of x5)
          (Cert.Spec.hidR (Cert.Spec.swOf x1) (Cert.Spec.dwOf x1) (Cert.Spec.rwOf x1) (Cert.Spec.xOf x0)
            (Cert.Spec.w1Of x3) (Cert.Spec.b1Of x4)) (Cert.Spec.row (Cert.Spec.rwOf x1) e)) n := by
    unfold val_main_v56
    rw [scat2 _ rfl rfl rfl rfl, val_main_v54_apply, val_main_cst_12_apply, Ideal.ofBits_def,
      Ideal.ofBits_zero_f32, zero_add]
    unfold Cert.Spec.scat
    refine Finset.sum_congr rfl fun e _ => ?_
    rw [v55_read, v53_at]
  rw [val_main_v61_apply, val_main_v58_apply, h56, val_main_v57_apply,
    to_ix1 (idx_main_v57 (ix2 n (0 : Fin 1))) n rfl, v22_at, val_main_v60_apply,
    to_ix2 (idx_main_v60 (ix2 n (0 : Fin 1))) (0 : Fin 1) (0 : Fin 1) rfl rfl, val_main_v59_apply,
    to_ix1 (idx_main_v59 (ix2 (0 : Fin 1) (0 : Fin 1))) (0 : Fin 1) rfl, Ideal.addf_def, Ideal.mulf_def]
  rfl

/-- The second layer's output summed over the nodes whose graph word reads g. -/
private theorem v64_at (g : Fin 1000) :
    (val_main_v64 (F := Ideal) x0 x1 x2 x3 x4 x5 x6 : S1000x1.Idx → EReal) (ix2 g (0 : Fin 1))
      = Cert.Spec.gsum (Cert.Spec.swOf x1) (Cert.Spec.dwOf x1) (Cert.Spec.rwOf x1) (Cert.Spec.gwOf x2)
          (Cert.Spec.w2Of x5) (Cert.Spec.b2Of x6)
          (Cert.Spec.hidR (Cert.Spec.swOf x1) (Cert.Spec.dwOf x1) (Cert.Spec.rwOf x1) (Cert.Spec.xOf x0)
            (Cert.Spec.w1Of x3) (Cert.Spec.b1Of x4)) g.val := by
  unfold val_main_v64
  rw [scat2 _ rfl rfl rfl rfl, val_main_v62_apply, val_main_cst_13_apply, Ideal.ofBits_def, Ideal.ofBits_zero_f32,
    zero_add]
  unfold Cert.Spec.gsum
  refine Finset.sum_congr rfl fun m _ => ?_
  rw [val_main_v63_apply, to_ix1 (idx_main_v63 (ix2 m (0 : Fin 1))) m rfl, v61_at]
  rfl

/-- The number of nodes whose graph word reads g. -/
private theorem v68_at (g : Fin 1000) :
    (val_main_v68 (F := Ideal) x2 : S1000x1.Idx → EReal) (ix2 g (0 : Fin 1))
      = Cert.Spec.gcnt (Cert.Spec.gwOf x2) g.val := by
  unfold val_main_v68
  rw [scat2 _ rfl rfl rfl rfl, val_main_v66_apply, val_main_cst_15_apply, Ideal.ofBits_def, Ideal.ofBits_zero_f32,
    zero_add]
  unfold Cert.Spec.gcnt
  refine Finset.sum_congr rfl fun m _ => ?_
  rw [val_main_v67_apply, to_ix1 (idx_main_v67 (ix2 m (0 : Fin 1))) m rfl, val_main_v65_apply,
    val_main_cst_14_apply, Ideal.ofBits_def, one_word]
  rfl

end Layers

/-- The reference's result at graph g, as the composition of its operations' stages, is the readout of the two
    graph-convolution layers with the weight row applied before the first aggregation. -/
theorem ref_entry (x0 : S200000x1.Idx → EReal) (x1 : S2x6400000.Idx → BitVec 32) (x2 : S200000.Idx → BitVec 32)
    (x3 : S1x32.Idx → EReal) (x4 : S32.Idx → EReal) (x5 : S32x1.Idx → EReal) (x6 : S1.Idx → EReal) (g : Fin 1000) :
    (val_main_v72 (F := Ideal) x0 x1 x2 x3 x4 x5 x6 : S1000.Idx → EReal) (ix1 g)
      = Cert.Spec.resultR x0 x1 x2 x3 x4 x5 x6 g := by
  rw [val_main_v72_apply, to_ix2 (idx_main_v72 (ix1 g)) g (0 : Fin 1) (Nat.div_one _) rfl, val_main_v71_apply,
    v64_at, val_main_v70_apply, v68_at, val_main_v69_apply, val_main_cst_16_apply, Ideal.ofBits_def, one_word,
    Ideal.hostDivf_def, Ideal.maximumf_def]
  rfl

end Cert.ReferenceIdeal.RefValue

end
-- ==== Proof.lean ====
/-
  The certificate of a two-layer graph convolution with an average-pool readout.

  Both programs compute, for each of 1000 graphs, the mean over the graph's nodes of the second layer's output
  (the node count raised to at least 1). A layer scales a node's features by the inverse square root of its
  out-degree, applies a weight matrix, sums over the incoming edges, scales by the inverse square root of the
  in-degree and adds a bias; degrees are counts of edge words, a zero degree normalises to 0. The kernel program
  runs three grid-tiled calls (the two normalisations; the node-wise chain between the two edge aggregations, with
  a 32-term contraction; the readout as a one-hot sum accumulated over the grid) among plain gathers and
  scatter-adds over the edge words; the reference is the plain composition of the same operations.

  The two differ in one place: in the first layer the kernel program sums the scaled scalar feature over the
  incoming edges and multiplies by the weight row afterwards, the reference multiplies first. With finite node
  features and a finite weight row (the precondition) a factor moves across a sum of finite reals, and the two
  results are one function of the seven argument arrays (Spec.result_eq). The kernel program's result is read
  off its run call by call (KHost.result_entry, over the three calls' arrays KReg0/1/2), the reference's off its
  operations' stages (RefValue.ref_entry).
-/
import proofs.«430448_j86981677679168_2_alg».proof.Defs
import proofs.«430448_j86981677679168_2_alg».proof.Proof.Gen.Kernel
import proofs.«430448_j86981677679168_2_alg».proof.Proof.Gen.Kernel.Skeleton
import proofs.«430448_j86981677679168_2_alg».proof.Proof.Gen.Kernel.Launch
import proofs.«430448_j86981677679168_2_alg».proof.Proof.Gen.Kernel.Points
import proofs.«430448_j86981677679168_2_alg».proof.Proof.Gen.Kernel.Frame
import proofs.«430448_j86981677679168_2_alg».proof.Proof.Gen.KernelIdeal
import proofs.«430448_j86981677679168_2_alg».proof.Proof.Gen.KernelIdeal.Skeleton
import proofs.«430448_j86981677679168_2_alg».proof.Proof.Gen.KernelIdeal.Launch
import proofs.«430448_j86981677679168_2_alg».proof.Proof.Gen.KernelIdeal.Points
import proofs.«430448_j86981677679168_2_alg».proof.Proof.Gen.KernelIdeal.Frame
import proofs.«430448_j86981677679168_2_alg».proof.Proof.Gen.ReferenceIdeal
import proofs.«430448_j86981677679168_2_alg».proof.Proof.Gen.Pre_finite_inputs
import proofs.«430448_j86981677679168_2_alg».proof.Proof.RefRun
import proofs.«430448_j86981677679168_2_alg».proof.Proof.RefRead
import proofs.«430448_j86981677679168_2_alg».proof.Proof.Spec
import proofs.«430448_j86981677679168_2_alg».proof.Proof.Finite
import proofs.«430448_j86981677679168_2_alg».proof.Proof.KRun
import proofs.«430448_j86981677679168_2_alg».proof.Proof.KHost
import proofs.«430448_j86981677679168_2_alg».proof.Proof.RefValue
import Idealize.ShloMosaic.Adequacy
import Idealize.ShloMosaic.Init

noncomputable section

namespace Cert.Proof

open Idealize.ShloMosaic Idealize.ShloMosaic.ValueIdx Idealize.SL.Sem Cert.Kernel

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel call: its frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the same result array: at graph g the kernel
    program's is the readout with the scalar summed first, the reference's the readout with the weight row applied
    first, and under the precondition the two agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W7 (F := Ideal) m ρ c (Proc.devRef .tc Cert.KernelIdeal.main_v46),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2.1, (hagree c).2.2.2.1,
    (hagree c).2.2.2.2.1, (hagree c).2.2.2.2.2.1, (hagree c).2.2.2.2.2.2]
  funext i
  obtain ⟨g, rfl⟩ : ∃ g : Fin 1000, i = ix1 g := ⟨i 0, eq_ix1 i⟩
  refine (Cert.ReferenceIdeal.RefValue.ref_entry _ _ _ _ _ _ _ g).trans ?_
  refine Eq.trans ?_ (Cert.KernelIdeal.KHost.result_entry m ρ c g).symm
  exact (congrFun (Cert.Spec.result_eq _ _ _ _ _ _ _
    (fun i => Cert.Finite.x_real _ _ _ _ _ _ _ (hpre c) i)
    (fun i => Cert.Finite.w1_real _ _ _ _ _ _ _ (hpre c) i)) g).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
